-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S10000x128 : Shape := ⟨2, ![10000, 128]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x2048 .f32) (main_arg1 : FVec F S10000x128 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x2048 : Shape := ⟨2, ![10000, 2048]⟩
abbrev S10000x128 : Shape := ⟨2, ![10000, 128]⟩
abbrev S10000x256 : Shape := ⟨2, ![10000, 256]⟩
abbrev S2500x256 : Shape := ⟨2, ![2500, 256]⟩
abbrev S2500x128 : Shape := ⟨2, ![2500, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S10000x128, .f32⟩
  | .local _ .vmem, ⟨0, _⟩ => ⟨S10000x256, .f32⟩
  | .local _ .vmem, ⟨1, _⟩ => ⟨S10000x256, .f32⟩
  | .local _ .vmem, ⟨2, _⟩ => ⟨S10000x128, .f32⟩
  | .local _ .vmem, ⟨3, _⟩ => ⟨S10000x128, .f32⟩
  | .local _ .vmem, ⟨4, _⟩ => ⟨S10000x128, .bf16⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S10000x256_S2500x256_0_0 : ∀ a, (![0, 0] : Fin 2 → Nat) a + S2500x256.size a ≤ S10000x256.size a
  h_S2500x256 : 0 < S2500x256.numel
  inb_S10000x256_S2500x256_2500_0 : ∀ a, (![2500, 0] : Fin 2 → Nat) a + S2500x256.size a ≤ S10000x256.size a
  inb_S10000x256_S2500x256_5000_0 : ∀ a, (![5000, 0] : Fin 2 → Nat) a + S2500x256.size a ≤ S10000x256.size a
  inb_S10000x256_S2500x256_7500_0 : ∀ a, (![7500, 0] : Fin 2 → Nat) a + S2500x256.size a ≤ S10000x256.size a
  inb_S10000x128_S2500x128_0_0 : ∀ a, (![0, 0] : Fin 2 → Nat) a + S2500x128.size a ≤ S10000x128.size a
  h_S2500x128 : 0 < S2500x128.numel
  inb_S10000x128_S2500x128_2500_0 : ∀ a, (![2500, 0] : Fin 2 → Nat) a + S2500x128.size a ≤ S10000x128.size a
  inb_S10000x128_S2500x128_5000_0 : ∀ a, (![5000, 0] : Fin 2 → Nat) a + S2500x128.size a ≤ S10000x128.size a
  inb_S10000x128_S2500x128_7500_0 : ∀ a, (![7500, 0] : Fin 2 → Nat) a + S2500x128.size a ≤ S10000x128.size a
  shapeCasts_S2500x128_S2500x128 : S2500x128.ShapeCasts S2500x128
  dot_S2500x256_S2500x128_S256x128_0_0_1_1_n_n_wf : DotDims.WF S2500x256 S2500x128 S256x128 [0] [0] [1] [1] [] []
  dot_S2500x256_S256x128_S2500x128_1_0_0_1_n_n_wf : DotDims.WF S2500x256 S256x128 S2500x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x2048.size a
  hwx0_0 : ∀ i : grid0.Coords, EltTy.bits .f32 = 32 ∨ (Rect.block (s := S10000x2048) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)

variable [Facts₀]

def dot_S2500x256_S2500x128_S256x128_0_0_1_1_n_n : DotDims S2500x256 S2500x128 S256x128 where
  lhsContracting := [0]
  rhsContracting := [0]
  lhsNonContracting := [1]
  rhsNonContracting := [1]
  lhsBatch := []
  rhsBatch := []
  wf := dot_S2500x256_S2500x128_S256x128_0_0_1_1_n_n_wf
def dot_S2500x256_S256x128_S2500x128_1_0_0_1_n_n : DotDims S2500x256 S256x128 S2500x128 where
  lhsContracting := [1]
  rhsContracting := [0]
  lhsNonContracting := [0]
  rhsNonContracting := [1]
  lhsBatch := []
  rhsBatch := []
  wf := dot_S2500x256_S256x128_S2500x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x2048 : Shape := ⟨2, ![10000, 2048]⟩
abbrev S10000x128 : Shape := ⟨2, ![10000, 128]⟩
abbrev S2048x10000 : Shape := ⟨2, ![2048, 10000]⟩
abbrev S2048x128 : Shape := ⟨2, ![2048, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S2048x10000, .f32⟩
  | .hbm, ⟨3, _⟩ => ⟨S2048x128, .f32⟩
  | .hbm, ⟨4, _⟩ => ⟨S_, .f32⟩
  | .hbm, ⟨5, _⟩ => ⟨S_, .f32⟩
  | .hbm, ⟨6, _⟩ => ⟨S2048x128, .f32⟩
  | .hbm, ⟨7, _⟩ => ⟨S2048x128, .i1⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S10000x128, .f32⟩
  | .hbm, ⟨13, _⟩ => ⟨S_, .f32⟩
  | .hbm, ⟨14, _⟩ => ⟨S_, .f32⟩
  | .hbm, ⟨15, _⟩ => ⟨S10000x128, .f32⟩
  | .hbm, ⟨16, _⟩ => ⟨S10000x128, .i1⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_call1_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v4 : Ref sig .tc := ⟨.hbm, 20, rfl⟩

abbrev nD : Nat := 1
abbrev τ : Topo := Topo.v7x

variable {F : FTy → Type} [FloatOps F]

class Facts₀ : Prop where
  transposes_S10000x2048_S2048x10000_1_0 : S10000x2048.Transposes [1, 0] S2048x10000
  bcast_S_S2048x128 : S_.BroadcastsInDim S2048x128 (![] : Fin 0 → Fin S2048x128.rank)
  bcast_S_S10000x128 : S_.BroadcastsInDim S10000x128 (![] : Fin 0 → Fin S10000x128.rank)
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []

variable [Facts₀]

def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf

class Facts : Prop extends Facts₀ where

variable [Facts]
-- ==== Proof.Spec.lean ====
/-
  The function both programs compute, written once over the extended reals, and the two regroupings of sums
  that relate the kernel's arrangement to it.

  With A : [10000, 2048] and E : [10000, 128], and lk x = x where 0 ≤ x and x/2 elsewhere,
    hidden j d = lk (∑ r, A[r, j] · E[r, d])                  (the hyperedge features, [2048, 128])
    result i d = lk (∑ j, A[i, j] · hidden j d)               (the node features, [10000, 128]).
  The kernel walks the 2048 columns in 8 blocks of 256; inside a block it sums the 10000 rows as 4 chunks of
  2500, and it adds each block's contribution ∑ j' A[i, 256k + j'] · hidden (256k + j') d to a running total.
  Only commutativity and associativity of + on the extended reals are used: no entry needs to be finite.
-/
import Idealize.ShloMosaic.PureOps.Ideal
import Idealize.ShloMosaic.Lib.ValueIdx
import Mathlib.Algebra.BigOperators.Fin
import Mathlib.Algebra.BigOperators.Intervals
import Mathlib.Logic.Equiv.Fin.Basic

noncomputable section

open scoped BigOperators

namespace Cert.Hgnn

open Idealize.ShloMosaic Idealize.ShloMosaic.ValueIdx

abbrev SA : Shape := ⟨2, ![10000, 2048]⟩
abbrev SE : Shape := ⟨2, ![10000, 128]⟩

/-! ## Regrouping a sum over consecutive blocks -/

/-- A sum over `nb * sz` consecutive indices is the sum over the blocks of the sums inside each block. -/
theorem sum_blocks {M : Type*} [AddCommMonoid M] (nb sz : ℕ) (f : Fin (nb * sz) → M) :
    ∑ x, f x = ∑ c : Fin nb, ∑ r : Fin sz, f (finProdFinEquiv (c, r)) := by
  rw [← finProdFinEquiv.sum_comp, Fintype.sum_prod_type]

/-- Row `r'` of row chunk `c` (four chunks of 2500 rows). -/
def row (c : Fin 4) (r' : Fin 2500) : Fin 10000 := ⟨2500 * c.val + r'.val, by omega⟩

/-- Column `j'` of column block `k` (eight blocks of 256 columns); total in `k` by wrapping, which never happens for k < 8. -/
def col (k : ℕ) (j' : Fin 256) : Fin 2048 := ⟨(256 * k + j'.val) % 2048, Nat.mod_lt _ (by decide)⟩

theorem col_val (k : ℕ) (hk : k < 8) (j' : Fin 256) : (col k j').val = 256 * k + j'.val := by
  show (256 * k + j'.val) % 2048 = _
  exact Nat.mod_eq_of_lt (by omega)

/-- The 10000 rows as four chunks of 2500. -/
theorem sum_rows {M : Type*} [AddCommMonoid M] (f : Fin 10000 → M) :
    ∑ r, f r = ∑ c : Fin 4, ∑ r' : Fin 2500, f (row c r') := by
  refine (sum_blocks 4 2500 f).trans ?_
  refine Finset.sum_congr rfl fun c _ => Finset.sum_congr rfl fun r' _ => congrArg f (Fin.ext ?_)
  show r'.val + 2500 * c.val = 2500 * c.val + r'.val
  omega

/-- The 2048 columns as eight blocks of 256, the blocks counted by a natural number. -/
theorem sum_cols {M : Type*} [AddCommMonoid M] (f : Fin 2048 → M) :
    ∑ j, f j = ∑ k ∈ Finset.range 8, ∑ j' : Fin 256, f (col k j') := by
  rw [Finset.sum_range fun k => ∑ j' : Fin 256, f (col k j')]
  refine (sum_blocks 8 256 f).trans ?_
  refine Finset.sum_congr rfl fun k _ => Finset.sum_congr rfl fun j' _ => congrArg f (Fin.ext ?_)
  rw [col_val k.val k.isLt j']
  show j'.val + 256 * k.val = 256 * k.val + j'.val
  omega

/-! ## The function -/

/-- Leaky ReLU of slope 1/2 on one extended real, in the operations both programs print: the value itself where
    it is at least zero, half of it elsewhere. -/
def lk (x : Ideal .f32) : Ideal .f32 :=
  Scalar.select (FloatOps.cmpf .oge x (FloatOps.ofBits .f32 0x00000000#32)) x
    (FloatOps.mulf (FloatOps.ofBits .f32 0x3F000000#32) x)

variable (A : FVec Ideal SA .f32) (E : FVec Ideal SE .f32)

/-- Hyperedge `j`'s feature `d`: leaky of column `j` of A against column `d` of E. -/
def hidden (j : Fin 2048) (d : Fin 128) : EReal := lk (∑ r : Fin 10000, A (ix2 r j) * E (ix2 r d))

/-- The same sum over the rows taken as the kernel takes it: zero, plus the four chunks in order. -/
theorem hidden_chunks (j : Fin 2048) (d : Fin 128) :
    lk (((((0 : EReal) + ∑ r' : Fin 2500, A (ix2 (row 0 r') j) * E (ix2 (row 0 r') d))
        + ∑ r' : Fin 2500, A (ix2 (row 1 r') j) * E (ix2 (row 1 r') d))
        + ∑ r' : Fin 2500, A (ix2 (row 2 r') j) * E (ix2 (row 2 r') d))
        + ∑ r' : Fin 2500, A (ix2 (row 3 r') j) * E (ix2 (row 3 r') d)) = hidden A E j d := by
  unfold hidden
  rw [sum_rows fun r => A (ix2 r j) * E (ix2 r d), Fin.sum_univ_four, zero_add]

/-- Column block `k`'s contribution to node `i`'s feature `d`. -/
def contrib (k : ℕ) (i : Fin 10000) (d : Fin 128) : EReal :=
  ∑ j' : Fin 256, A (ix2 i (col k j')) * hidden A E (col k j') d

/-- The running total after column blocks 0 … n. -/
def total (n : ℕ) (i : Fin 10000) (d : Fin 128) : EReal := ∑ k ∈ Finset.range (n + 1), contrib A E k i d

theorem total_zero (i : Fin 10000) (d : Fin 128) : (0 : EReal) + contrib A E 0 i d = total A E 0 i d := by
  unfold total; rw [Finset.sum_range_one, zero_add]

theorem total_succ (n : ℕ) (i : Fin 10000) (d : Fin 128) :
    total A E n i d + contrib A E (n + 1) i d = total A E (n + 1) i d := by
  unfold total; rw [Finset.sum_range_succ _ (n + 1)]

/-- Node `i`'s feature `d`. -/
def resultAt (i : Fin 10000) (d : Fin 128) : EReal := lk (∑ j : Fin 2048, A (ix2 i j) * hidden A E j d)

/-- After all eight column blocks the running total is the whole sum over the columns. -/
theorem resultAt_eq_total (i : Fin 10000) (d : Fin 128) : resultAt A E i d = lk (total A E 7 i d) := by
  unfold resultAt total contrib
  rw [sum_cols fun j => A (ix2 i j) * hidden A E j d]

/-- The result array, index by index. -/
def G : FVec Ideal SE .f32 := fun y => resultAt A E (y 0) (y 1)

end Cert.Hgnn

end
-- ==== Proof.RefSide.lean ====
/-
  The reference program's side. Its @main, with the two leaky-ReLU calls opened at their call sites, is a straight
  line of nineteen host operations; run from any memory it ends with the result buffer holding the operations'
  composed term of the two argument buffers, and that term, read index by index, is the specification's function:
  the transposed first operand contracted against the second gives the column sums, the leaky ReLU of them the
  hyperedge features, the first operand contracted against those the row sums, and the leaky ReLU of them the result.
-/
import proofs.«137675_g26250840113511_retrytranche2_1766_21_alg».proof.Proof.Gen.ReferenceIdeal
import proofs.«137675_g26250840113511_retrytranche2_1766_21_alg».proof.Proof.Spec
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx

section Generic

variable {F : FTy → Type} [FloatOps F]

/-- The program as a list: three operations of @main, the seven of the first leaky ReLU written over the first call's
    buffers, two more of @main, and the seven of the second leaky ReLU over the second call's buffers. -/
abbrev ops : List (HloOp τ sig (Elt F)) :=
  [ unary main_arg0 main_v0 ((transpose S2048x10000 [1, 0] · transposes_S10000x2048_S2048x10000_1_0) : (⟨S10000x2048, .f32⟩ : BufTy).Contents (Elt F) → (⟨S2048x10000, .f32⟩ : BufTy).Contents (Elt F)),
    binary main_v0 main_arg1 main_v1 ((fun l r => Host.dotGeneral dot_S2048x10000_S10000x128_S2048x128_1_0_0_1_n_n none l r) : (⟨S2048x10000, .f32⟩ : BufTy).Contents (Elt F) → (⟨S10000x128, .f32⟩ : BufTy).Contents (Elt F) → (⟨S2048x128, .f32⟩ : BufTy).Contents (Elt F)),
    nullary main_cst (constant S_ .f32 0x3F000000#32),
    TRef.nullary main_call0.cst (constant S_ .f32 0x00000000#32),
    TRef.unary main_call0.cst main_call0.v0 (broadcastInDim S2048x128 ![] bcast_S_S2048x128),
    TRef.binary (.of main_v1) main_call0.v0 main_call0.v1 (cmpf .oge),
    TRef.unary (.of main_cst) main_call0.v2 id,
    TRef.unary main_call0.v2 main_call0.v3 (broadcastInDim S2048x128 ![] bcast_S_S2048x128),
    TRef.binary main_call0.v3 (.of main_v1) main_call0.v4 mulf,
    TRef.ternary main_call0.v1 (.of main_v1) main_call0.v4 main_call0.call0.v0 select,
    binary main_arg0 main_v2 main_v3 ((fun l r => Host.dotGeneral dot_S10000x2048_S2048x128_S10000x128_1_0_0_1_n_n none l r) : (⟨S10000x2048, .f32⟩ : BufTy).Contents (Elt F) → (⟨S2048x128, .f32⟩ : BufTy).Contents (Elt F) → (⟨S10000x128, .f32⟩ : BufTy).Contents (Elt F)),
    nullary main_cst_0 (constant S_ .f32 0x3F000000#32),
    TRef.nullary main_call1.cst (constant S_ .f32 0x00000000#32),
    TRef.unary main_call1.cst main_call1.v0 (broadcastInDim S10000x128 ![] bcast_S_S10000x128),
    TRef.binary (.of main_v3) main_call1.v0 main_call1.v1 (cmpf .oge),
    TRef.unary (.of main_cst_0) main_call1.v2 id,
    TRef.unary main_call1.v2 main_call1.v3 (broadcastInDim S10000x128 ![] bcast_S_S10000x128),
    TRef.binary main_call1.v3 (.of main_v3) main_call1.v4 mulf,
    TRef.ternary main_call1.v1 (.of main_v3) main_call1.v4 main_call1.call0.v0 select ]

set_option maxRecDepth 1024 in
/-- Opening the four callee bodies where they are called and flattening the nested sequencing leaves exactly that list. -/
theorem main_eq (c : Dev nD) : main (F := F) c = seq ops := by
  simp only [main, fn_leaky_relu.body, fn_where.body, fn_leaky_relu_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., nullary_bufs_sub ..,
    nullary_bufs_sub .., unary_bufs_sub .., binary_bufs_sub .., unary_bufs_sub .., unary_bufs_sub .., binary_bufs_sub .., ternary_bufs_sub ..,
    binary_bufs_sub .., nullary_bufs_sub ..,
    nullary_bufs_sub .., unary_bufs_sub .., binary_bufs_sub .., unary_bufs_sub .., unary_bufs_sub .., binary_bufs_sub .., ternary_bufs_sub ..⟩

/-- The column sums, the hyperedge features before their leaky ReLU: the transposed first operand contracted against
    the second. -/
def pre1 (A : FVec F S10000x2048 .f32) (E : FVec F S10000x128 .f32) : FVec F S2048x128 .f32 :=
  Host.dotGeneral dot_S2048x10000_S10000x128_S2048x128_1_0_0_1_n_n none
    (transpose S2048x10000 [1, 0] A transposes_S10000x2048_S2048x10000_1_0) E

/-- The hyperedge features: where a column sum is at least zero the sum itself, elsewhere half of it. -/
def hid (A : FVec F S10000x2048 .f32) (E : FVec F S10000x128 .f32) : FVec F S2048x128 .f32 :=
  select (cmpf .oge (pre1 A E) (broadcastInDim S2048x128 ![] bcast_S_S2048x128 (constant S_ .f32 0x00000000#32)))
    (pre1 A E)
    (mulf (broadcastInDim S2048x128 ![] bcast_S_S2048x128 (constant S_ .f32 0x3F000000#32)) (pre1 A E))

/-- The row sums, the node features before their leaky ReLU: the first operand contracted against the hyperedge
    features. -/
def pre2 (A : FVec F S10000x2048 .f32) (E : FVec F S10000x128 .f32) : FVec F S10000x128 .f32 :=
  Host.dotGeneral dot_S10000x2048_S2048x128_S10000x128_1_0_0_1_n_n none A (hid A E)

/-- The node features: the program's result as one term of its two arguments. -/
def out (A : FVec F S10000x2048 .f32) (E : FVec F S10000x128 .f32) : FVec F S10000x128 .f32 :=
  select (cmpf .oge (pre2 A E) (broadcastInDim S10000x128 ![] bcast_S_S10000x128 (constant S_ .f32 0x00000000#32)))
    (pre2 A E)
    (mulf (broadcastInDim S10000x128 ![] bcast_S_S10000x128 (constant S_ .f32 0x3F000000#32)) (pre2 A E))

/-- Whatever the float values and the starting memory (counters at zero), the program always finishes; at the end the
    result buffer holds `out` of the two arguments' starting contents, and the two arguments are as they started. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (by after_results; rfl),
      (h c main_arg0).trans (by after_results),
      (h c main_arg1).trans (by after_results)⟩)
    (run_seq scopedRefs_eq scopedSems_eq defs main (fun _ => ops) main_eq (fun _ => ops_sub) m ρ)

end Generic

/-! # The composed term, read index by index, at the extended reals -/

/-! ## The first contraction's operand indices

Its dimension numbers contract axis 1 of the transposed operand with axis 0 of the second; the result's axes are the
transposed operand's axis 0 and the second operand's axis 1. One fact per operand axis. -/

theorem lhs1_0 (j : S2048x128.Idx) (k : dot_S2048x10000_S10000x128_S2048x128_1_0_0_1_n_n.contr.Idx) :
    (dot_S2048x10000_S10000x128_S2048x128_1_0_0_1_n_n.lhsIdx j k 0).val = (j 0).val := by
  unfold DotDims.lhsIdx
  rw [dif_neg (show ¬ (0 : Fin S2048x10000.rank) ∈ dot_S2048x10000_S10000x128_S2048x128_1_0_0_1_n_n.lhsBatch by decide),
    dif_pos (show (0 : Fin S2048x10000.rank) ∈ dot_S2048x10000_S10000x128_S2048x128_1_0_0_1_n_n.lhsNonContracting by decide)]
  rfl

theorem lhs1_1 (j : S2048x128.Idx) (k : dot_S2048x10000_S10000x128_S2048x128_1_0_0_1_n_n.contr.Idx) :
    (dot_S2048x10000_S10000x128_S2048x128_1_0_0_1_n_n.lhsIdx j k 1).val = (k ⟨0, by decide⟩).val :=
  dot_S2048x10000_S10000x128_S2048x128_1_0_0_1_n_n.lhsIdx_val_of_single rfl j k

theorem rhs1_0 (j : S2048x128.Idx) (k : dot_S2048x10000_S10000x128_S2048x128_1_0_0_1_n_n.contr.Idx) :
    (dot_S2048x10000_S10000x128_S2048x128_1_0_0_1_n_n.rhsIdx j k 0).val = (k ⟨0, by decide⟩).val :=
  dot_S2048x10000_S10000x128_S2048x128_1_0_0_1_n_n.rhsIdx_val_of_single rfl j k

theorem rhs1_1 (j : S2048x128.Idx) (k : dot_S2048x10000_S10000x128_S2048x128_1_0_0_1_n_n.contr.Idx) :
    (dot_S2048x10000_S10000x128_S2048x128_1_0_0_1_n_n.rhsIdx j k 1).val = (j 1).val := by
  unfold DotDims.rhsIdx
  rw [dif_neg (show ¬ (1 : Fin S10000x128.rank) ∈ dot_S2048x10000_S10000x128_S2048x128_1_0_0_1_n_n.rhsBatch by decide),
    dif_pos (show (1 : Fin S10000x128.rank) ∈ dot_S2048x10000_S10000x128_S2048x128_1_0_0_1_n_n.rhsNonContracting by decide)]
  rfl

/-- At row `r` of the contraction, the transposed operand is read at `(j, r)` … -/
theorem lidx1 (j : Fin 2048) (d : Fin 128) (r : Fin 10000) :
    dot_S2048x10000_S10000x128_S2048x128_1_0_0_1_n_n.lhsIdx (ix2 j d)
        ((contrEquiv1 dot_S2048x10000_S10000x128_S2048x128_1_0_0_1_n_n 10000 rfl rfl).symm r) = ix2 j r := by
  funext a
  refine Fin.ext ?_
  match a with
  | ⟨0, _⟩ => exact lhs1_0 _ _
  | ⟨1, _⟩ => exact (lhs1_1 _ _).trans (contrEquiv1_symm_val dot_S2048x10000_S10000x128_S2048x128_1_0_0_1_n_n 10000 rfl rfl r)

/-- … and the second operand at `(r, d)`. -/
theorem ridx1 (j : Fin 2048) (d : Fin 128) (r : Fin 10000) :
    dot_S2048x10000_S10000x128_S2048x128_1_0_0_1_n_n.rhsIdx (ix2 j d)
        ((contrEquiv1 dot_S2048x10000_S10000x128_S2048x128_1_0_0_1_n_n 10000 rfl rfl).symm r) = ix2 r d := by
  funext a
  refine Fin.ext ?_
  match a with
  | ⟨0, _⟩ => exact (rhs1_0 _ _).trans (contrEquiv1_symm_val dot_S2048x10000_S10000x128_S2048x128_1_0_0_1_n_n 10000 rfl rfl r)
  | ⟨1, _⟩ => exact rhs1_1 _ _

/-- The column sums read at `(j, d)`: column `j` of the first operand against column `d` of the second. -/
theorem pre1_apply (A : FVec Ideal S10000x2048 .f32) (E : FVec Ideal S10000x128 .f32) (j : Fin 2048) (d : Fin 128) :
    pre1 (F := Ideal) A E (ix2 j d) = ∑ r : Fin 10000, A (ix2 r j) * E (ix2 r d) := by
  unfold pre1
  simp only [Host.dotGeneral]
  rw [Ideal.dotGeneral_apply,
    ← Equiv.sum_comp (contrEquiv1 dot_S2048x10000_S10000x128_S2048x128_1_0_0_1_n_n 10000 rfl rfl).symm]
  refine Finset.sum_congr rfl fun r _ => ?_
  rw [lidx1, ridx1, transpose_ix2_apply]

/-! ## The second contraction's operand indices -/

theorem lhs2_0 (j : S10000x128.Idx) (k : dot_S10000x2048_S2048x128_S10000x128_1_0_0_1_n_n.contr.Idx) :
    (dot_S10000x2048_S2048x128_S10000x128_1_0_0_1_n_n.lhsIdx j k 0).val = (j 0).val := by
  unfold DotDims.lhsIdx
  rw [dif_neg (show ¬ (0 : Fin S10000x2048.rank) ∈ dot_S10000x2048_S2048x128_S10000x128_1_0_0_1_n_n.lhsBatch by decide),
    dif_pos (show (0 : Fin S10000x2048.rank) ∈ dot_S10000x2048_S2048x128_S10000x128_1_0_0_1_n_n.lhsNonContracting by decide)]
  rfl

theorem lhs2_1 (j : S10000x128.Idx) (k : dot_S10000x2048_S2048x128_S10000x128_1_0_0_1_n_n.contr.Idx) :
    (dot_S10000x2048_S2048x128_S10000x128_1_0_0_1_n_n.lhsIdx j k 1).val = (k ⟨0, by decide⟩).val :=
  dot_S10000x2048_S2048x128_S10000x128_1_0_0_1_n_n.lhsIdx_val_of_single rfl j k

theorem rhs2_0 (j : S10000x128.Idx) (k : dot_S10000x2048_S2048x128_S10000x128_1_0_0_1_n_n.contr.Idx) :
    (dot_S10000x2048_S2048x128_S10000x128_1_0_0_1_n_n.rhsIdx j k 0).val = (k ⟨0, by decide⟩).val :=
  dot_S10000x2048_S2048x128_S10000x128_1_0_0_1_n_n.rhsIdx_val_of_single rfl j k

theorem rhs2_1 (j : S10000x128.Idx) (k : dot_S10000x2048_S2048x128_S10000x128_1_0_0_1_n_n.contr.Idx) :
    (dot_S10000x2048_S2048x128_S10000x128_1_0_0_1_n_n.rhsIdx j k 1).val = (j 1).val := by
  unfold DotDims.rhsIdx
  rw [dif_neg (show ¬ (1 : Fin S2048x128.rank) ∈ dot_S10000x2048_S2048x128_S10000x128_1_0_0_1_n_n.rhsBatch by decide),
    dif_pos (show (1 : Fin S2048x128.rank) ∈ dot_S10000x2048_S2048x128_S10000x128_1_0_0_1_n_n.rhsNonContracting by decide)]
  rfl

/-- At column `c` of the contraction, the first operand is read at `(i, c)` … -/
theorem lidx2 (i : Fin 10000) (d : Fin 128) (c : Fin 2048) :
    dot_S10000x2048_S2048x128_S10000x128_1_0_0_1_n_n.lhsIdx (ix2 i d)
        ((contrEquiv1 dot_S10000x2048_S2048x128_S10000x128_1_0_0_1_n_n 2048 rfl rfl).symm c) = ix2 i c := by
  funext a
  refine Fin.ext ?_
  match a with
  | ⟨0, _⟩ => exact lhs2_0 _ _
  | ⟨1, _⟩ => exact (lhs2_1 _ _).trans (contrEquiv1_symm_val dot_S10000x2048_S2048x128_S10000x128_1_0_0_1_n_n 2048 rfl rfl c)

/-- … and the hyperedge features at `(c, d)`. -/
theorem ridx2 (i : Fin 10000) (d : Fin 128) (c : Fin 2048) :
    dot_S10000x2048_S2048x128_S10000x128_1_0_0_1_n_n.rhsIdx (ix2 i d)
        ((contrEquiv1 dot_S10000x2048_S2048x128_S10000x128_1_0_0_1_n_n 2048 rfl rfl).symm c) = ix2 c d := by
  funext a
  refine Fin.ext ?_
  match a with
  | ⟨0, _⟩ => exact (rhs2_0 _ _).trans (contrEquiv1_symm_val dot_S10000x2048_S2048x128_S10000x128_1_0_0_1_n_n 2048 rfl rfl c)
  | ⟨1, _⟩ => exact rhs2_1 _ _

/-- The row sums read at `(i, d)`: row `i` of the first operand against column `d` of the hyperedge features. -/
theorem pre2_apply (A : FVec Ideal S10000x2048 .f32) (E : FVec Ideal S10000x128 .f32) (i : Fin 10000) (d : Fin 128) :
    pre2 (F := Ideal) A E (ix2 i d) = ∑ c : Fin 2048, A (ix2 i c) * hid (F := Ideal) A E (ix2 c d) := by
  unfold pre2
  simp only [Host.dotGeneral]
  rw [Ideal.dotGeneral_apply,
    ← Equiv.sum_comp (contrEquiv1 dot_S10000x2048_S2048x128_S10000x128_1_0_0_1_n_n 2048 rfl rfl).symm]
  refine Finset.sum_congr rfl fun c _ => ?_
  rw [lidx2, ridx2]

/-! ## The leaky ReLU read at an index -/

/-- The printed leaky ReLU of an array — compare with the zero splat, select the array or the half splat times it —
    read at an index is the specification's leaky ReLU of the element there: every operation reads through. -/
theorem lk_read {S : Shape} (h : S_.BroadcastsInDim S (![] : Fin 0 → Fin S.rank)) (x : FVec Ideal S .f32) (y : S.Idx) :
    select (cmpf .oge x (broadcastInDim S ![] h (constant (F := Ideal) S_ .f32 0x00000000#32))) x
        (mulf (broadcastInDim S ![] h (constant (F := Ideal) S_ .f32 0x3F000000#32)) x) y
      = Cert.Hgnn.lk (x y) := rfl

theorem hid_apply (A : FVec Ideal S10000x2048 .f32) (E : FVec Ideal S10000x128 .f32) (y : S2048x128.Idx) :
    hid (F := Ideal) A E y = Cert.Hgnn.lk (pre1 (F := Ideal) A E y) := by
  unfold hid
  exact lk_read _ _ _

theorem out_apply (A : FVec Ideal S10000x2048 .f32) (E : FVec Ideal S10000x128 .f32) (y : S10000x128.Idx) :
    out (F := Ideal) A E y = Cert.Hgnn.lk (pre2 (F := Ideal) A E y) := by
  unfold out
  exact lk_read _ _ _

/-! ## The composed term is the specification's function -/

theorem out_eq_G (A : FVec Ideal S10000x2048 .f32) (E : FVec Ideal S10000x128 .f32) :
    out (F := Ideal) A E = Cert.Hgnn.G A E := by
  funext y
  obtain ⟨i, d, rfl⟩ : ∃ (i : Fin 10000) (d : Fin 128), y = ix2 i d := ⟨y 0, y 1, eq_ix2 y⟩
  show out (F := Ideal) A E (ix2 i d) = Cert.Hgnn.resultAt A E i d
  rw [out_apply, pre2_apply]
  unfold Cert.Hgnn.resultAt
  refine congrArg Cert.Hgnn.lk (Finset.sum_congr rfl fun c _ => ?_)
  rw [hid_apply, pre1_apply]
  rfl

/-! # The run, at the extended reals, against the specification -/

/-- At the extended reals the program always finishes with its result buffer holding the specification's function of
    the two arguments' starting contents, the arguments untouched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
          = Cert.Hgnn.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq_G _ _), (h c).2.1, (h c).2.2⟩) (run_out m ρ)

end Cert.ReferenceIdeal.RefSide

end
-- ==== Proof.KernelRun.lean ====
/-
  From the last grid point to the result array. The result's window has a constant index map: at every one of the
  eight grid points its block is the whole [10000, 128] array at offset zero, and it is written back once, after the
  last point. So if the staging buffer holds the specification's function after point 7, that one write-back puts the
  function, whole, into the result array: the written block covers every index, and the arguments are never written.
-/
import proofs.«137675_g26250840113511_retrytranche2_1766_21_alg».proof.Proof.Gen.KernelIdeal.Value
import proofs.«137675_g26250840113511_retrytranche2_1766_21_alg».proof.Proof.Spec
import Idealize.ShloMosaic.Lib.Pipeline.Value

noncomputable section

namespace Cert.KernelIdeal.KSide

open Cert.KernelIdeal Cert.KernelIdeal.Gen Idealize.ShloMosaic Idealize.ShloMosaic.TcCoe Idealize.SL.Sem
open Idealize.ShloMosaic.Pipeline (Dat)

/-! ## The result window's block: the whole array, at every point -/

/-- The last grid point. -/
abbrev last : Fin cfg0.N := ⟨7, by rw [show cfg0.N = 8 from N_0]; decide⟩

/-- At every point the block starts at row 0 and column 0 … -/
theorem blk_off : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

/-- … and spans all 10000 rows and all 128 columns. -/
theorem blk_ext : ∀ t : Fin cfg0.N,
    win0_2.xsize (grid0.coords t) 0 = 10000 ∧ win0_2.xsize (grid0.coords t) 1 = 128 :=
  (by decide +kernel : ∀ t : Fin grid0.N,
    win0_2.xsize (grid0.coords t) 0 = 10000 ∧ win0_2.xsize (grid0.coords t) 1 = 128)

/-- The block's offsets as one function: zero on both axes. -/
theorem blk_off_fun (t : Fin cfg0.N) : (fun a => win0_2.index t a * main_v0.ty.shape.size a) = fun _ => 0 :=
  funext fun a => match a with
    | ⟨0, _⟩ => (blk_off t).1
    | ⟨1, _⟩ => (blk_off t).2

/-- Any array of the result's shape, cut to what a write-back at point `t` moves, is that array read through the
    point's block: the block is the whole array at offset zero. -/
theorem cut_eq_read (t : Fin cfg0.N) (X : Vec Ideal S10000x128 .f32) :
    (cfg0.win 2).cut (grid0.coords t) X = ((cfg0.win 2).blk t).view.read (Elt Ideal) X :=
  (Memref.read_access_unit_zero (Elt Ideal) main_v0 (blk_off_fun t)
    (fun a => by rw [congrFun (blk_off_fun t) a]; simp) X).symm

/-- Every index of the result array lies in the block written back after the last point. -/
theorem cover (i : S10000x128.Idx) :
    ∃ t : Fin cfg0.N, (cfg0.win 2).flush t = true ∧ i ∈ ((cfg0.win 2).blk t).view.set := by
  have h0 : (i 0 : Nat) < 10000 := (i 0).isLt
  have h1 : (i 1 : Nat) < 128 := (i 1).isLt
  refine ⟨last, (flush0_2 last).mpr rfl, ?_⟩
  show i ∈ ((View.whole main_v0).slice (win0_2.rect last)).set
  rw [View.set_slice_whole, Rect.mem_set_unit]
  intro a
  match a with
  | ⟨0, _⟩ =>
    show win0_2.index last 0 * win0_2.size 0 ≤ (i 0 : Nat)
      ∧ (i 0 : Nat) < win0_2.index last 0 * win0_2.size 0 + win0_2.xsize (grid0.coords last) 0
    rw [(blk_off last).1, (blk_ext last).1]; omega
  | ⟨1, _⟩ =>
    show win0_2.index last 1 * win0_2.size 1 ≤ (i 1 : Nat)
      ∧ (i 1 : Nat) < win0_2.index last 1 * win0_2.size 1 + win0_2.xsize (grid0.coords last) 1
    rw [(blk_off last).2, (blk_ext last).2]; omega

/-! ## From the staging buffer after the last point to the array -/

section Last

variable (hlast : ∀ (m : (ℓ : Loc nD τ sig) → Buf (Elt Ideal) ℓ) (c : Dev nD) (h7 : 7 < cfg0.N),
    (outsAt0 (F := Ideal) m c 7 h7).1
      = Cert.Hgnn.G (m ((c : Thread nD τ).loc main_arg0)) (m ((c : Thread nD τ).loc main_arg1)))
variable (m : (ℓ : Loc nD τ sig) → Buf (Elt Ideal) ℓ)

/-- The specification's function of the two arguments' starting contents, as contents of the result array. -/
abbrev result (c : Dev nD) : Buf (Elt Ideal) ((c : Thread nD τ).loc main_v0) :=
  Cert.Hgnn.G (m ((c : Thread nD τ).loc main_arg0)) (m ((c : Thread nD τ).loc main_arg1))

include hlast in
/-- The hypothesis at a point known only by its number: a point numbered 7 is the last point. -/
theorem outs_last (c : Dev nD) (n : ℕ) (hn : n < cfg0.N) (h7 : n = 7) :
    (outsAt0 (F := Ideal) m c n hn).1 = result m c := by
  subst h7
  exact hlast m c hn

include hlast in
/-- What a write-back writes is the function read through the block: a write-back happens only after point 7, where
    the staging buffer holds the function, and the block is the whole array. -/
theorem flushed_eq (c : Dev nD) (t : Fin cfg0.N) (hf : (cfg0.win 2).flush t = true) :
    (dats (F := Ideal) m 0 c).flushed 2 t = ((cfg0.win 2).blk t).view.read (Elt Ideal) (result m c) := by
  have hN : cfg0.N = 8 := N_0
  have h7 : t.val = 7 := by have := (flush0_2 t).mp hf; have := t.isLt; omega
  rw [Value.flushed2, outs_last hlast m c t.val t.isLt h7]
  exact cut_eq_read t (result m c)

include hlast in
/-- So the result array ends holding the function. -/
theorem final (c : Dev nD) : (dats (F := Ideal) m 0 c).arrAt 2 cfg0.N = result m c :=
  (dats (F := Ideal) m 0 c).arrAt_eq_of_cover 2 (result m c) (fun t hf => flushed_eq hlast m c t hf) cover

end Last

/-! ## The run -/

/-- If the result's staging buffer holds the specification's function of the arguments after the last grid point,
    the kernel always finishes with that function in the result array and the two arguments as they started. -/
theorem run_of
    (hlast : ∀ (m : (ℓ : Loc nD τ sig) → Buf (Elt Ideal) ℓ) (c : Dev nD) (h7 : 7 < cfg0.N),
      (outsAt0 (F := Ideal) m c 7 h7).1
        = Cert.Hgnn.G (m ((c : Thread nD τ).loc main_arg0)) (m ((c : Thread nD τ).loc main_arg1)))
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
          = Cert.Hgnn.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final hlast m c), (h c).2⟩) (Value.run_blocks m ρ)

end Cert.KernelIdeal.KSide

end
-- ==== Proof.StepDefs.lean ====
/-
  One grid point of the kernel, as a function of what the point finds: the adjacency block x0 ([10000, 256]: all
  rows, this point's 256 columns), the embeddings es held in the scratch ([10000, 128]) and the running output p
  ([10000, 128]).

  The point forms the hidden block h = lk (x0ᵀ · es) ([256, 128]), the sum over the 10000 rows taken as four chunks
  of 2500, and then, chunk of rows by chunk of rows, stores p + x0 · h over the output: four stored pieces, the
  chunk at rows 7500 … 9999 stored last.
-/
import proofs.«137675_g26250840113511_retrytranche2_1766_21_alg».proof.Proof.Gen.KernelIdeal.Skeleton
import proofs.«137675_g26250840113511_retrytranche2_1766_21_alg».proof.Proof.Spec
import Idealize.ShloMosaic.Lib.Pipeline.FrameBody

noncomputable section

open scoped BigOperators

namespace Cert.KernelIdeal.Step

open Cert.KernelIdeal Cert.KernelIdeal.Gen Idealize.ShloMosaic Idealize.ShloMosaic.ValueIdx

variable {F : FTy → Type} [FloatOps F]

/-- The four row chunks of the adjacency block, -/
abbrev Q0 : Rect S10000x256 := Rect.unit (s := S10000x256) ![0, 0] S2500x256.size inb_S10000x256_S2500x256_0_0
abbrev Q1 : Rect S10000x256 := Rect.unit (s := S10000x256) ![2500, 0] S2500x256.size inb_S10000x256_S2500x256_2500_0
abbrev Q2 : Rect S10000x256 := Rect.unit (s := S10000x256) ![5000, 0] S2500x256.size inb_S10000x256_S2500x256_5000_0
abbrev Q3 : Rect S10000x256 := Rect.unit (s := S10000x256) ![7500, 0] S2500x256.size inb_S10000x256_S2500x256_7500_0
/-- and of a [10000, 128] array (the scratch, the output). -/
abbrev R0 : Rect S10000x128 := Rect.unit (s := S10000x128) ![0, 0] S2500x128.size inb_S10000x128_S2500x128_0_0
abbrev R1 : Rect S10000x128 := Rect.unit (s := S10000x128) ![2500, 0] S2500x128.size inb_S10000x128_S2500x128_2500_0
abbrev R2 : Rect S10000x128 := Rect.unit (s := S10000x128) ![5000, 0] S2500x128.size inb_S10000x128_S2500x128_5000_0
abbrev R3 : Rect S10000x128 := Rect.unit (s := S10000x128) ![7500, 0] S2500x128.size inb_S10000x128_S2500x128_7500_0

/-- The hidden block: leaky of (adjacency block)ᵀ · embeddings, the rows summed chunk by chunk. -/
def hk (x0 : Vec F S10000x256 .f32) (es : Vec F S10000x128 .bf16) : FVec F S256x128 .bf16 :=
  k0_pay12 (View.ld x0 Q0) (View.ld x0 Q1) (View.ld x0 Q2) (View.ld x0 Q3)
    (View.ld es R0) (View.ld es R1) (View.ld es R2) (View.ld es R3)

/-- What the point stores over the output, last store first: for each chunk of rows, the running output there plus
    that chunk of the adjacency block times the hidden block. -/
def pieces (x0 : Vec F S10000x256 .f32) (es : Vec F S10000x128 .bf16) (p : Vec F S10000x128 .f32) :
    List (View.Piece (Elt F) S10000x128 .f32) :=
  [⟨R3, k0_pay4 (k0_pay11 (View.ld x0 Q3)) (hk x0 es) (View.ld p R3)⟩,
   ⟨R2, k0_pay3 (k0_pay10 (View.ld x0 Q2)) (hk x0 es) (View.ld p R2)⟩,
   ⟨R1, k0_pay2 (k0_pay9 (View.ld x0 Q1)) (hk x0 es) (View.ld p R1)⟩,
   ⟨R0, k0_pay1 (k0_pay8 (View.ld x0 Q0)) (hk x0 es) (View.ld p R0)⟩]

/-! ## The same, over the extended reals -/

open Cert.Hgnn (lk row)

/-- Entry (j', d) of the hidden block over the extended reals: leaky of zero plus the four chunks' sums, in order. -/
def hval (x0 : FVec Ideal S10000x256 .f32) (es : FVec Ideal S10000x128 .bf16) (j' : Fin 256) (d : Fin 128) : EReal :=
  lk (((((0 : EReal) + ∑ r'' : Fin 2500, x0 (ix2 (row 0 r'') j') * es (ix2 (row 0 r'') d))
      + ∑ r'' : Fin 2500, x0 (ix2 (row 1 r'') j') * es (ix2 (row 1 r'') d))
      + ∑ r'' : Fin 2500, x0 (ix2 (row 2 r'') j') * es (ix2 (row 2 r'') d))
      + ∑ r'' : Fin 2500, x0 (ix2 (row 3 r'') j') * es (ix2 (row 3 r'') d))

/-- Entry (r, d) of the output after the point: the running output plus row r of the adjacency block against column d
    of the hidden block. -/
def stepAt (x0 : FVec Ideal S10000x256 .f32) (es : FVec Ideal S10000x128 .bf16) (p : FVec Ideal S10000x128 .f32)
    (r : Fin 10000) (d : Fin 128) : EReal :=
  p (ix2 r d) + ∑ j' : Fin 256, x0 (ix2 r j') * hval x0 es j' d

end Cert.KernelIdeal.Step

end
-- ==== Proof.Chunks.lean ====
/-
  Row chunks of a [10000, n] array: reading a chunk, and reading a list of stored pieces in which the most recent
  ones are chunks of 2500 consecutive rows.

  A chunk is the unit-stride rectangle of rows o … o + 2499 and all n columns. Row r of the array lies in it exactly
  when o ≤ r < o + 2500, and is then row r - o of the chunk; so a value loaded through the chunk, read at (r', j),
  is the array at (o + r', j), and a list of stored pieces whose head is a chunk reads the head's payload at rows
  inside the chunk and the rest of the list at rows outside it.
-/
import Idealize.ShloMosaic.Lib.Pipeline.Value
import Idealize.ShloMosaic.Lib.ValueIdx

noncomputable section

namespace Cert.Hgnn.Chunks

open Idealize.ShloMosaic Idealize.ShloMosaic.ValueIdx

variable {Val : EltTy → Type} {e : EltTy} {n : ℕ}

/-- The chunk's index `(r', j)` is the array's index `(o + r', j)`. -/
theorem emb_chunk (o : ℕ) (h : ∀ a, (![o, 0] : Fin 2 → ℕ) a + (![2500, n] : Fin 2 → ℕ) a ≤ (⟨2, ![10000, n]⟩ : Shape).size a)
    (r : Fin 10000) (r' : Fin 2500) (j : Fin n) (hr : r.val = o + r'.val) :
    (Rect.unit (s := ⟨2, ![10000, n]⟩) ![o, 0] ![2500, n] h).emb (ix2 r' j) = ix2 r j := by
  funext a
  apply Fin.ext
  rw [Rect.emb_apply]
  match a with
  | ⟨0, _⟩ => show o + 1 * r'.val = r.val; omega
  | ⟨1, _⟩ => show 0 + 1 * j.val = j.val; omega

theorem idx_chunk (o : ℕ) (h : ∀ a, (![o, 0] : Fin 2 → ℕ) a + (![2500, n] : Fin 2 → ℕ) a ≤ (⟨2, ![10000, n]⟩ : Shape).size a)
    (r : Fin 10000) (r' : Fin 2500) (j : Fin n) (hr : r.val = o + r'.val) :
    (Rect.unit (s := ⟨2, ![10000, n]⟩) ![o, 0] ![2500, n] h).idx (ix2 r' j) = ix2 r j :=
  emb_chunk o h r r' j hr

/-- A load through a chunk reads the array at the chunk's rows. -/
theorem ld_chunk (o : ℕ) (h : ∀ a, (![o, 0] : Fin 2 → ℕ) a + (![2500, n] : Fin 2 → ℕ) a ≤ (⟨2, ![10000, n]⟩ : Shape).size a)
    (X : (⟨2, ![10000, n]⟩ : Shape).Idx → Val e) (r : Fin 10000) (r' : Fin 2500) (j : Fin n) (hr : r.val = o + r'.val) :
    View.ld X (Rect.unit (s := ⟨2, ![10000, n]⟩) ![o, 0] ![2500, n] h) (ix2 r' j) = X (ix2 r j) :=
  congrArg X (idx_chunk o h r r' j hr)

variable [∀ e, Nonempty (Val e)]

/-- A row inside the head chunk reads the head's payload. -/
theorem canon_hit (o : ℕ) (h : ∀ a, (![o, 0] : Fin 2 → ℕ) a + (![2500, n] : Fin 2 → ℕ) a ≤ (⟨2, ![10000, n]⟩ : Shape).size a)
    (w : (⟨2, ![2500, n]⟩ : Shape).Idx → Val e) (L : List (View.Piece Val ⟨2, ![10000, n]⟩ e))
    (r : Fin 10000) (r' : Fin 2500) (j : Fin n) (hr : r.val = o + r'.val) :
    View.canon ((⟨Rect.unit (s := ⟨2, ![10000, n]⟩) ![o, 0] ![2500, n] h, w⟩ : View.Piece Val ⟨2, ![10000, n]⟩ e) :: L) (ix2 r j)
      = w (ix2 r' j) := by
  have e := View.canon_cons_emb (Rect.unit (s := ⟨2, ![10000, n]⟩) ![o, 0] ![2500, n] h) w L (ix2 r' j)
  rw [emb_chunk o h r r' j hr] at e
  exact e

/-- A row outside the head chunk reads the rest of the list. -/
theorem canon_miss (o : ℕ) (h : ∀ a, (![o, 0] : Fin 2 → ℕ) a + (![2500, n] : Fin 2 → ℕ) a ≤ (⟨2, ![10000, n]⟩ : Shape).size a)
    (w : (⟨2, ![2500, n]⟩ : Shape).Idx → Val e) (L : List (View.Piece Val ⟨2, ![10000, n]⟩ e))
    (r : Fin 10000) (j : Fin n) (hr : r.val < o ∨ o + 2500 ≤ r.val) :
    View.canon ((⟨Rect.unit (s := ⟨2, ![10000, n]⟩) ![o, 0] ![2500, n] h, w⟩ : View.Piece Val ⟨2, ![10000, n]⟩ e) :: L) (ix2 r j)
      = View.canon L (ix2 r j) := by
  refine View.canon_cons_of_not_mem _ L ?_
  rw [Rect.mem_set_unit]
  intro hm
  have h0 := hm 0
  have e0 : ((ix2 r j : (⟨2, ![10000, n]⟩ : Shape).Idx) 0 : ℕ) = r.val := rfl
  have e1 : (![o, 0] : Fin 2 → ℕ) 0 = o := rfl
  have e2 : (![2500, n] : Fin 2 → ℕ) 0 = 2500 := rfl
  rw [e0, e1, e2] at h0
  omega

/-- A load through one chunk, after a store to a chunk that does not meet it, reads what the earlier stores left. -/
theorem readCov_miss {sig : RefSig} {κ : Kind} {sp : Space} (v : View sig κ sp ⟨2, ![10000, n]⟩ e) (o o' : ℕ)
    (h : ∀ a, (![o, 0] : Fin 2 → ℕ) a + (![2500, n] : Fin 2 → ℕ) a ≤ (⟨2, ![10000, n]⟩ : Shape).size a)
    (h' : ∀ a, (![o', 0] : Fin 2 → ℕ) a + (![2500, n] : Fin 2 → ℕ) a ≤ (⟨2, ![10000, n]⟩ : Shape).size a)
    (w : (⟨2, ![2500, n]⟩ : Shape).Idx → Val e) (L : List (View.Piece Val ⟨2, ![10000, n]⟩ e))
    (hd : o + 2500 ≤ o' ∨ o' + 2500 ≤ o) :
    v.readCov ((⟨Rect.unit (s := ⟨2, ![10000, n]⟩) ![o, 0] ![2500, n] h, w⟩ : View.Piece Val ⟨2, ![10000, n]⟩ e) :: L)
        (Rect.unit (s := ⟨2, ![10000, n]⟩) ![o', 0] ![2500, n] h').toLoadRect
      = v.readCov L (Rect.unit (s := ⟨2, ![10000, n]⟩) ![o', 0] ![2500, n] h').toLoadRect := by
  rw [View.readCov_eq_canon', View.readCov_eq_canon']
  funext x
  obtain ⟨r', j, rfl⟩ : ∃ (r' : Fin 2500) (j : Fin n), x = ix2 r' j := ⟨x 0, x 1, eq_ix2 x⟩
  have hlt : o' + r'.val < 10000 := by
    have := h' 0
    have e1 : (![o', 0] : Fin 2 → ℕ) 0 = o' := rfl
    have e2 : (![2500, n] : Fin 2 → ℕ) 0 = 2500 := rfl
    have e3 : (⟨2, ![10000, n]⟩ : Shape).size 0 = 10000 := rfl
    rw [e1, e2, e3] at this
    omega
  show View.canon _ ((Rect.unit (s := ⟨2, ![10000, n]⟩) ![o', 0] ![2500, n] h').idx (ix2 r' j))
    = View.canon L ((Rect.unit (s := ⟨2, ![10000, n]⟩) ![o', 0] ![2500, n] h').idx (ix2 r' j))
  rw [idx_chunk o' h' ⟨o' + r'.val, hlt⟩ r' j rfl]
  exact canon_miss o h w L ⟨o' + r'.val, hlt⟩ j (by show o' + r'.val < o ∨ o + 2500 ≤ o' + r'.val; omega)

/-- A load through any rectangle of what one store of the whole array left reads that store's payload there. -/
theorem readCov_whole {sig : RefSig} {κ : Kind} {sp : Space} {S : Shape} (v : View sig κ sp S e)
    {off : Fin S.rank → ℕ} (hz : off = fun _ => 0) (inb : ∀ a, off a + S.size a ≤ S.size a) (w : S.Idx → Val e) (B : Rect S) :
    v.readCov [(⟨Rect.unit off S.size inb, w⟩ : View.Piece Val S e)] B.toLoadRect = View.ld w B := by
  rw [View.readCov_eq_canon', View.canon_unit_zero hz]

end Cert.Hgnn.Chunks

end
-- ==== Proof.Body.lean ====
/-
  What each of the body's three cases leaves, in terms of one grid point's step (the four row-chunk pieces of
  StepDefs): the first point casts the embeddings into the scratch and runs the step over a zeroed output; a middle
  point runs the step over the output the point before left; the last point runs it and then applies leaky to the
  whole output.
-/
import proofs.«137675_g26250840113511_retrytranche2_1766_21_alg».proof.Proof.Gen.KernelIdeal.Frame
import proofs.«137675_g26250840113511_retrytranche2_1766_21_alg».proof.Proof.StepDefs
import proofs.«137675_g26250840113511_retrytranche2_1766_21_alg».proof.Proof.Chunks
import Idealize.ShloMosaic.Lib.Pipeline.Value
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.Sem
open Cert.Hgnn.Chunks

variable {F : FTy → Type} [FloatOps F]

theorem hz2 : (![0, 0] : Fin 2 → ℕ) = fun _ => 0 := by
  funext a; match a with | ⟨0, _⟩ => rfl | ⟨1, _⟩ => rfl

/-- The first point stores the embeddings, cast, over the whole scratch. -/
theorem sout_A (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : cond0_0 i) (hc1 : ¬cond0_1 i) (x0 : Vec F S10000x256 .f32) (x1 : Vec F S10000x128 .f32) :
    sout0_A_0 c i arg1 harg1 arg2 harg2 arg3 harg3 arg4 harg4 hc0 hc1 x0 x1 = k0_pay6 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_unit_zero hz2]
  simp only [View.readAt_eq_ld, harg2.read_unread, View.ld_unit_zero (S := S10000x128) hz2]

/-- A middle point leaves the step's four pieces over the output the point before left. -/
theorem out_B (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : ¬cond0_0 i) (hc1 : ¬cond0_1 i) (x0 : Vec F S10000x256 .f32) (x1 : Vec F S10000x128 .f32)
    (xo2 : Vec F S10000x128 .f32) (xs0 : Vec F S10000x128 .bf16) :
    out0_B_2 c i arg1 harg1 arg2 harg2 arg3 harg3 arg4 harg4 hc0 hc1 x0 x1 xo2 xs0 = View.canon (pieces x0 xs0 xo2) := by
  unfold out0_B_2
  rw [View.read_writes_eq_canon _ _ _ (cover0_B_2 c i arg1 harg1 arg2 harg2 arg3 harg3 arg4 harg4 hc0 hc1 x0 x1 xo2 xs0)]
  unfold kernelRun0_B
  dsimp only
  sl_unfold_words
  simp only [View.readAt_eq_ld, harg1.read_unread, harg3.read_unread, harg4.read_unread]
  rfl

/-- The last point runs the step over the output the point before left and then applies leaky to the whole output. -/
theorem out_C (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : ¬cond0_0 i) (hc1 : cond0_1 i) (x0 : Vec F S10000x256 .f32) (x1 : Vec F S10000x128 .f32)
    (xo2 : Vec F S10000x128 .f32) (xs0 : Vec F S10000x128 .bf16) :
    out0_C_2 c i arg1 harg1 arg2 harg2 arg3 harg3 arg4 harg4 hc0 hc1 x0 x1 xo2 xs0 = k0_pay5 (View.canon (pieces x0 xs0 xo2)) := by
  unfold out0_C_2
  rw [View.read_writes_eq_canon _ _ _ (cover0_C_2 c i arg1 harg1 arg2 harg2 arg3 harg3 arg4 harg4 hc0 hc1 x0 x1 xo2 xs0)]
  unfold kernelRun0_C
  dsimp only
  sl_unfold_words
  rw [View.canon_cons_unit_zero hz2]
  simp only [View.readAt_eq_ld, harg1.read_unread, harg3.read_unread, harg4.read_unread]
  refine congrArg k0_pay5 ?_
  rw [View.readCov_eq_canon']
  exact View.ld_unit_zero hz2 _ (View.canon (pieces x0 xs0 xo2))

/-- The first point zeroes the whole output and runs the step over that zero, with the scratch it has just filled:
    the step's four pieces, stored after the zero fill. -/
theorem out_A (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .bf16) (harg4 : arg4.IsWhole) (hc0 : cond0_0 i) (hc1 : ¬cond0_1 i) (x0 : Vec F S10000x256 .f32) (x1 : Vec F S10000x128 .f32) :
    out0_A_2 c i arg1 harg1 arg2 harg2 arg3 harg3 arg4 harg4 hc0 hc1 x0 x1
      = View.canon (pieces x0 (k0_pay6 x1) (k0_pay7 (F := F))
          ++ [(⟨Rect.unit (s := S10000x128) ![0, 0] S10000x128.size inb_S10000x128_S10000x128_0_0, k0_pay7 (F := F)⟩ :
                View.Piece (Elt F) S10000x128 .f32)]) := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  simp only [View.readAt_eq_ld, harg1.read_unread, harg2.read_unread, View.ld_unit_zero (S := S10000x128) hz2,
    readCov_miss _ 0 2500 _ _ _ _ (by omega), readCov_miss _ 0 5000 _ _ _ _ (by omega),
    readCov_miss _ 2500 5000 _ _ _ _ (by omega), readCov_miss _ 0 7500 _ _ _ _ (by omega),
    readCov_miss _ 2500 7500 _ _ _ _ (by omega), readCov_miss _ 5000 7500 _ _ _ _ (by omega),
    readCov_whole (S := S10000x128) _ hz2]
  rfl

end Cert.KernelIdeal.Step

end
-- ==== Proof.StepValue.lean ====
/-
  The value of one grid point over the extended reals.

  With x0 the adjacency block ([10000, 256]), es the embeddings ([10000, 128]) and p the running output
  ([10000, 128]), the point's hidden block is, entry by entry,
    h[j', d] = lk (0 + ∑_{chunk 0} x0[r, j'] · es[r, d] + … + ∑_{chunk 3} x0[r, j'] · es[r, d]),
  the rows r summed chunk of 2500 by chunk of 2500, and the value it leaves at row r, column d of the output is
    p[r, d] + ∑ j', x0[r, j'] · h[j', d].
  Two contractions occur: one over the rows of both operands (the hidden block), one over the columns of the left
  operand and the rows of the right one (the output). Each is read at an index as a sum over the contracted
  coordinate; a change of float format is the identity on extended reals; a chunk loaded through its rectangle is
  the array at the chunk's rows; and of the four stored chunks, a row of chunk c is reached by chunk c's store alone.
-/
import proofs.«137675_g26250840113511_retrytranche2_1766_21_alg».proof.Proof.StepDefs
import proofs.«137675_g26250840113511_retrytranche2_1766_21_alg».proof.Proof.Chunks
import Idealize.ShloMosaic.PureOps.Ideal.Laws
import Idealize.ShloMosaic.Lib.ValueIdx
import Idealize.ShloMosaic.Lib.Pipeline.Value

noncomputable section

open scoped BigOperators

namespace Cert.KernelIdeal.Step

open Cert.KernelIdeal Cert.KernelIdeal.Gen Idealize.ShloMosaic Idealize.ShloMosaic.ValueIdx
open Cert.Hgnn (lk row)

/-! ## The two contractions at an index -/

/-- The hidden block's contraction runs over the rows of both operands: on the left operand the row axis carries the
    contraction position -/
theorem lhs_rows_0 (j : S256x128.Idx) (k : dot_S2500x256_S2500x128_S256x128_0_0_1_1_n_n.contr.Idx) :
    (dot_S2500x256_S2500x128_S256x128_0_0_1_1_n_n.lhsIdx j k 0).val = (k ⟨0, by decide⟩).val :=
  dot_S2500x256_S2500x128_S256x128_0_0_1_1_n_n.lhsIdx_val_of_single (cl := 0) rfl j k

/-- and the column axis the result's row; -/
theorem lhs_rows_1 (j : S256x128.Idx) (k : dot_S2500x256_S2500x128_S256x128_0_0_1_1_n_n.contr.Idx) :
    (dot_S2500x256_S2500x128_S256x128_0_0_1_1_n_n.lhsIdx j k 1).val = (j 0).val := by
  simp [DotDims.lhsIdx, dot_S2500x256_S2500x128_S256x128_0_0_1_1_n_n]
  rfl

/-- on the right operand the row axis carries the contraction position -/
theorem rhs_rows_0 (j : S256x128.Idx) (k : dot_S2500x256_S2500x128_S256x128_0_0_1_1_n_n.contr.Idx) :
    (dot_S2500x256_S2500x128_S256x128_0_0_1_1_n_n.rhsIdx j k 0).val = (k ⟨0, by decide⟩).val :=
  dot_S2500x256_S2500x128_S256x128_0_0_1_1_n_n.rhsIdx_val_of_single (cr := 0) rfl j k

/-- and the column axis the result's column. -/
theorem rhs_rows_1 (j : S256x128.Idx) (k : dot_S2500x256_S2500x128_S256x128_0_0_1_1_n_n.contr.Idx) :
    (dot_S2500x256_S2500x128_S256x128_0_0_1_1_n_n.rhsIdx j k 1).val = (j 1).val := by
  simp [DotDims.rhsIdx, dot_S2500x256_S2500x128_S256x128_0_0_1_1_n_n]
  rfl

/-- Entry (j', d) of the product contracting the rows, into a zero accumulator: column j' of the left operand against
    column d of the right one. -/
theorem matmul_rows_apply (a : FVec Ideal S2500x256 .bf16) (b : FVec Ideal S2500x128 .bf16) (j' : Fin 256) (d : Fin 128) :
    FloatOps.matmul dot_S2500x256_S2500x128_S256x128_0_0_1_1_n_n none a b (constant (F := Ideal) S256x128 .f32 0x00000000#32) (ix2 j' d)
      = ∑ r : Fin 2500, a (ix2 r j') * b (ix2 r d) := by
  rw [Ideal.matmul_constant_zero_apply,
    ← Equiv.sum_comp (contrEquiv1 dot_S2500x256_S2500x128_S256x128_0_0_1_1_n_n 2500 rfl rfl).symm]
  refine Finset.sum_congr rfl fun r _ => ?_
  have hk := contrEquiv1_symm_val dot_S2500x256_S2500x128_S256x128_0_0_1_1_n_n 2500 rfl rfl r
  have hl : dot_S2500x256_S2500x128_S256x128_0_0_1_1_n_n.lhsIdx (ix2 j' d)
      ((contrEquiv1 dot_S2500x256_S2500x128_S256x128_0_0_1_1_n_n 2500 rfl rfl).symm r) = ix2 r j' := by
    funext ax; apply Fin.ext
    match ax with
    | ⟨0, _⟩ => exact (lhs_rows_0 _ _).trans hk
    | ⟨1, _⟩ => exact lhs_rows_1 _ _
  have hr : dot_S2500x256_S2500x128_S256x128_0_0_1_1_n_n.rhsIdx (ix2 j' d)
      ((contrEquiv1 dot_S2500x256_S2500x128_S256x128_0_0_1_1_n_n 2500 rfl rfl).symm r) = ix2 r d := by
    funext ax; apply Fin.ext
    match ax with
    | ⟨0, _⟩ => exact (rhs_rows_0 _ _).trans hk
    | ⟨1, _⟩ => exact rhs_rows_1 _ _
  rw [hl, hr]

/-- The output's contraction runs over the columns of the adjacency chunk and the rows of the hidden block: on the
    left operand the row axis is the result's row -/
theorem lhs_cols_0 (j : S2500x128.Idx) (k : dot_S2500x256_S256x128_S2500x128_1_0_0_1_n_n.contr.Idx) :
    (dot_S2500x256_S256x128_S2500x128_1_0_0_1_n_n.lhsIdx j k 0).val = (j 0).val := by
  simp [DotDims.lhsIdx, dot_S2500x256_S256x128_S2500x128_1_0_0_1_n_n]
  rfl

/-- and the column axis carries the contraction position; -/
theorem lhs_cols_1 (j : S2500x128.Idx) (k : dot_S2500x256_S256x128_S2500x128_1_0_0_1_n_n.contr.Idx) :
    (dot_S2500x256_S256x128_S2500x128_1_0_0_1_n_n.lhsIdx j k 1).val = (k ⟨0, by decide⟩).val :=
  dot_S2500x256_S256x128_S2500x128_1_0_0_1_n_n.lhsIdx_val_of_single (cl := 1) rfl j k

/-- on the right operand the row axis carries the contraction position -/
theorem rhs_cols_0 (j : S2500x128.Idx) (k : dot_S2500x256_S256x128_S2500x128_1_0_0_1_n_n.contr.Idx) :
    (dot_S2500x256_S256x128_S2500x128_1_0_0_1_n_n.rhsIdx j k 0).val = (k ⟨0, by decide⟩).val :=
  dot_S2500x256_S256x128_S2500x128_1_0_0_1_n_n.rhsIdx_val_of_single (cr := 0) rfl j k

/-- and the column axis is the result's column. -/
theorem rhs_cols_1 (j : S2500x128.Idx) (k : dot_S2500x256_S256x128_S2500x128_1_0_0_1_n_n.contr.Idx) :
    (dot_S2500x256_S256x128_S2500x128_1_0_0_1_n_n.rhsIdx j k 1).val = (j 1).val := by
  simp [DotDims.rhsIdx, dot_S2500x256_S256x128_S2500x128_1_0_0_1_n_n]
  rfl

/-- Entry (r', d) of the product of a chunk of the adjacency block with the hidden block, into a zero accumulator:
    row r' of the chunk against column d of the hidden block. -/
theorem matmul_cols_apply (a : FVec Ideal S2500x256 .bf16) (h : FVec Ideal S256x128 .bf16) (r' : Fin 2500) (d : Fin 128) :
    FloatOps.matmul dot_S2500x256_S256x128_S2500x128_1_0_0_1_n_n none a h (constant (F := Ideal) S2500x128 .f32 0x00000000#32) (ix2 r' d)
      = ∑ j' : Fin 256, a (ix2 r' j') * h (ix2 j' d) := by
  rw [Ideal.matmul_constant_zero_apply,
    ← Equiv.sum_comp (contrEquiv1 dot_S2500x256_S256x128_S2500x128_1_0_0_1_n_n 256 rfl rfl).symm]
  refine Finset.sum_congr rfl fun j' _ => ?_
  have hk := contrEquiv1_symm_val dot_S2500x256_S256x128_S2500x128_1_0_0_1_n_n 256 rfl rfl j'
  have hl : dot_S2500x256_S256x128_S2500x128_1_0_0_1_n_n.lhsIdx (ix2 r' d)
      ((contrEquiv1 dot_S2500x256_S256x128_S2500x128_1_0_0_1_n_n 256 rfl rfl).symm j') = ix2 r' j' := by
    funext ax; apply Fin.ext
    match ax with
    | ⟨0, _⟩ => exact lhs_cols_0 _ _
    | ⟨1, _⟩ => exact (lhs_cols_1 _ _).trans hk
  have hr : dot_S2500x256_S256x128_S2500x128_1_0_0_1_n_n.rhsIdx (ix2 r' d)
      ((contrEquiv1 dot_S2500x256_S256x128_S2500x128_1_0_0_1_n_n 256 rfl rfl).symm j') = ix2 j' d := by
    funext ax; apply Fin.ext
    match ax with
    | ⟨0, _⟩ => exact (rhs_cols_0 _ _).trans hk
    | ⟨1, _⟩ => exact rhs_cols_1 _ _
  rw [hl, hr]

/-! ## The chunks read through their rectangles -/

theorem ld_Q0 (x0 : Vec Ideal S10000x256 .f32) (r : Fin 2500) (j : Fin 256) : View.ld x0 Q0 (ix2 r j) = x0 (ix2 (row 0 r) j) :=
  Cert.Hgnn.Chunks.ld_chunk 0 _ x0 (row 0 r) r j rfl
theorem ld_Q1 (x0 : Vec Ideal S10000x256 .f32) (r : Fin 2500) (j : Fin 256) : View.ld x0 Q1 (ix2 r j) = x0 (ix2 (row 1 r) j) :=
  Cert.Hgnn.Chunks.ld_chunk 2500 _ x0 (row 1 r) r j rfl
theorem ld_Q2 (x0 : Vec Ideal S10000x256 .f32) (r : Fin 2500) (j : Fin 256) : View.ld x0 Q2 (ix2 r j) = x0 (ix2 (row 2 r) j) :=
  Cert.Hgnn.Chunks.ld_chunk 5000 _ x0 (row 2 r) r j rfl
theorem ld_Q3 (x0 : Vec Ideal S10000x256 .f32) (r : Fin 2500) (j : Fin 256) : View.ld x0 Q3 (ix2 r j) = x0 (ix2 (row 3 r) j) :=
  Cert.Hgnn.Chunks.ld_chunk 7500 _ x0 (row 3 r) r j rfl

theorem ld_R0 {e : EltTy} (y : Vec Ideal S10000x128 e) (r : Fin 2500) (d : Fin 128) : View.ld y R0 (ix2 r d) = y (ix2 (row 0 r) d) :=
  Cert.Hgnn.Chunks.ld_chunk 0 _ y (row 0 r) r d rfl
theorem ld_R1 {e : EltTy} (y : Vec Ideal S10000x128 e) (r : Fin 2500) (d : Fin 128) : View.ld y R1 (ix2 r d) = y (ix2 (row 1 r) d) :=
  Cert.Hgnn.Chunks.ld_chunk 2500 _ y (row 1 r) r d rfl
theorem ld_R2 {e : EltTy} (y : Vec Ideal S10000x128 e) (r : Fin 2500) (d : Fin 128) : View.ld y R2 (ix2 r d) = y (ix2 (row 2 r) d) :=
  Cert.Hgnn.Chunks.ld_chunk 5000 _ y (row 2 r) r d rfl
theorem ld_R3 {e : EltTy} (y : Vec Ideal S10000x128 e) (r : Fin 2500) (d : Fin 128) : View.ld y R3 (ix2 r d) = y (ix2 (row 3 r) d) :=
  Cert.Hgnn.Chunks.ld_chunk 7500 _ y (row 3 r) r d rfl

/-! ## The hidden block at an index -/

theorem hk_apply (x0 : FVec Ideal S10000x256 .f32) (es : FVec Ideal S10000x128 .bf16) (j' : Fin 256) (d : Fin 128) :
    hk (F := Ideal) x0 es (ix2 j' d) = hval x0 es j' d := by
  have s0 : FloatOps.matmul (φ₂ := .bf16) dot_S2500x256_S2500x128_S256x128_0_0_1_1_n_n none (k0_pay8 (F := Ideal) (View.ld x0 Q0)) (View.ld (Val := Elt Ideal) (e' := .bf16) es R0)
      (constant (F := Ideal) S256x128 .f32 0x00000000#32) (ix2 j' d) = ∑ r : Fin 2500, x0 (ix2 (row 0 r) j') * es (ix2 (row 0 r) d) := by
    refine (matmul_rows_apply _ _ j' d).trans ?_
    exact Finset.sum_congr rfl fun r _ => congrArg₂ (· * ·) (ld_Q0 x0 r j') (ld_R0 (e := .bf16) es r d)
  have s1 : FloatOps.matmul (φ₂ := .bf16) dot_S2500x256_S2500x128_S256x128_0_0_1_1_n_n none (k0_pay9 (F := Ideal) (View.ld x0 Q1)) (View.ld (Val := Elt Ideal) (e' := .bf16) es R1)
      (constant (F := Ideal) S256x128 .f32 0x00000000#32) (ix2 j' d) = ∑ r : Fin 2500, x0 (ix2 (row 1 r) j') * es (ix2 (row 1 r) d) := by
    refine (matmul_rows_apply _ _ j' d).trans ?_
    exact Finset.sum_congr rfl fun r _ => congrArg₂ (· * ·) (ld_Q1 x0 r j') (ld_R1 (e := .bf16) es r d)
  have s2 : FloatOps.matmul (φ₂ := .bf16) dot_S2500x256_S2500x128_S256x128_0_0_1_1_n_n none (k0_pay10 (F := Ideal) (View.ld x0 Q2)) (View.ld (Val := Elt Ideal) (e' := .bf16) es R2)
      (constant (F := Ideal) S256x128 .f32 0x00000000#32) (ix2 j' d) = ∑ r : Fin 2500, x0 (ix2 (row 2 r) j') * es (ix2 (row 2 r) d) := by
    refine (matmul_rows_apply _ _ j' d).trans ?_
    exact Finset.sum_congr rfl fun r _ => congrArg₂ (· * ·) (ld_Q2 x0 r j') (ld_R2 (e := .bf16) es r d)
  have s3 : FloatOps.matmul (φ₂ := .bf16) dot_S2500x256_S2500x128_S256x128_0_0_1_1_n_n none (k0_pay11 (F := Ideal) (View.ld x0 Q3)) (View.ld (Val := Elt Ideal) (e' := .bf16) es R3)
      (constant (F := Ideal) S256x128 .f32 0x00000000#32) (ix2 j' d) = ∑ r : Fin 2500, x0 (ix2 (row 3 r) j') * es (ix2 (row 3 r) d) := by
    refine (matmul_rows_apply _ _ j' d).trans ?_
    exact Finset.sum_congr rfl fun r _ => congrArg₂ (· * ·) (ld_Q3 x0 r j') (ld_R3 (e := .bf16) es r d)
  unfold hval
  rw [← s0, ← s1, ← s2, ← s3, ← Ideal.ofBits_zero_f32]
  rfl

/-! ## A stored chunk at an index -/

/-- Entry (r', d) of a stored chunk: the running output there plus row r' of the adjacency chunk against column d of
    the hidden block. -/
theorem pay1_apply (a : FVec Ideal S2500x256 .bf16) (h : FVec Ideal S256x128 .bf16) (q : Vec Ideal S2500x128 .f32)
    (r' : Fin 2500) (d : Fin 128) :
    k0_pay1 (F := Ideal) a h q (ix2 r' d) = q (ix2 r' d) + ∑ j' : Fin 256, a (ix2 r' j') * h (ix2 j' d) := by
  unfold k0_pay1
  simp only [matmul, shapeCast_self, addf_apply]
  rw [matmul_cols_apply]

theorem pay2_apply (a : FVec Ideal S2500x256 .bf16) (h : FVec Ideal S256x128 .bf16) (q : Vec Ideal S2500x128 .f32)
    (r' : Fin 2500) (d : Fin 128) :
    k0_pay2 (F := Ideal) a h q (ix2 r' d) = q (ix2 r' d) + ∑ j' : Fin 256, a (ix2 r' j') * h (ix2 j' d) := by
  unfold k0_pay2
  simp only [matmul, shapeCast_self, addf_apply]
  rw [matmul_cols_apply]

theorem pay3_apply (a : FVec Ideal S2500x256 .bf16) (h : FVec Ideal S256x128 .bf16) (q : Vec Ideal S2500x128 .f32)
    (r' : Fin 2500) (d : Fin 128) :
    k0_pay3 (F := Ideal) a h q (ix2 r' d) = q (ix2 r' d) + ∑ j' : Fin 256, a (ix2 r' j') * h (ix2 j' d) := by
  unfold k0_pay3
  simp only [matmul, shapeCast_self, addf_apply]
  rw [matmul_cols_apply]

theorem pay4_apply (a : FVec Ideal S2500x256 .bf16) (h : FVec Ideal S256x128 .bf16) (q : Vec Ideal S2500x128 .f32)
    (r' : Fin 2500) (d : Fin 128) :
    k0_pay4 (F := Ideal) a h q (ix2 r' d) = q (ix2 r' d) + ∑ j' : Fin 256, a (ix2 r' j') * h (ix2 j' d) := by
  unfold k0_pay4
  simp only [matmul, shapeCast_self, addf_apply]
  rw [matmul_cols_apply]

/-! ## The output after the point -/

/-- A chunk's stored value is the step's value: with the chunk's row r' being row r of the arrays, the running output
    at (r, d) plus row r of the adjacency block against column d of the hidden block. -/
theorem step_of (x0 : FVec Ideal S10000x256 .f32) (es : FVec Ideal S10000x128 .bf16) (p : FVec Ideal S10000x128 .f32)
    (r : Fin 10000) (r' : Fin 2500) (d : Fin 128) (A : FVec Ideal S2500x256 .bf16) (q : Vec Ideal S2500x128 .f32)
    (hA : ∀ j' : Fin 256, A (ix2 r' j') = x0 (ix2 r j')) (hq : q (ix2 r' d) = p (ix2 r d)) :
    q (ix2 r' d) + ∑ j' : Fin 256, A (ix2 r' j') * hk (F := Ideal) x0 es (ix2 j' d) = stepAt x0 es p r d := by
  unfold stepAt
  rw [hq]
  exact congrArg (p (ix2 r d) + ·) (Finset.sum_congr rfl fun j' _ => by rw [hA j', hk_apply])

/-- After the point's four stores, whatever was stored before them, row r' of chunk c of the output holds the step's
    value: the later chunks' stores do not reach the row, and chunk c's store holds it. -/
theorem canon_pieces_at (x0 : FVec Ideal S10000x256 .f32) (es : FVec Ideal S10000x128 .bf16) (p : FVec Ideal S10000x128 .f32)
    (L : List (View.Piece (Elt Ideal) S10000x128 .f32)) (c : Fin 4) (r' : Fin 2500) (d : Fin 128) :
    View.canon (pieces x0 es p ++ L) (ix2 (row c r') d) = stepAt x0 es p (row c r') d := by
  have hr' := r'.isLt
  unfold pieces
  simp only [List.cons_append, List.nil_append]
  match c with
  | ⟨3, _⟩ =>
    refine (Cert.Hgnn.Chunks.canon_hit 7500 _ _ _ (row 3 r') r' d rfl).trans ?_
    refine (pay4_apply _ _ _ r' d).trans ?_
    exact step_of x0 es p (row 3 r') r' d _ _ (fun j' => ld_Q3 x0 r' j') (ld_R3 (e := .f32) p r' d)
  | ⟨2, _⟩ =>
    refine (Cert.Hgnn.Chunks.canon_miss 7500 _ _ _ (row 2 r') d (Or.inl (by show 2500 * 2 + r'.val < 7500; omega))).trans ?_
    refine (Cert.Hgnn.Chunks.canon_hit 5000 _ _ _ (row 2 r') r' d rfl).trans ?_
    refine (pay3_apply _ _ _ r' d).trans ?_
    exact step_of x0 es p (row 2 r') r' d _ _ (fun j' => ld_Q2 x0 r' j') (ld_R2 (e := .f32) p r' d)
  | ⟨1, _⟩ =>
    refine (Cert.Hgnn.Chunks.canon_miss 7500 _ _ _ (row 1 r') d (Or.inl (by show 2500 * 1 + r'.val < 7500; omega))).trans ?_
    refine (Cert.Hgnn.Chunks.canon_miss 5000 _ _ _ (row 1 r') d (Or.inl (by show 2500 * 1 + r'.val < 5000; omega))).trans ?_
    refine (Cert.Hgnn.Chunks.canon_hit 2500 _ _ _ (row 1 r') r' d rfl).trans ?_
    refine (pay2_apply _ _ _ r' d).trans ?_
    exact step_of x0 es p (row 1 r') r' d _ _ (fun j' => ld_Q1 x0 r' j') (ld_R1 (e := .f32) p r' d)
  | ⟨0, _⟩ =>
    refine (Cert.Hgnn.Chunks.canon_miss 7500 _ _ _ (row 0 r') d (Or.inl (by show 2500 * 0 + r'.val < 7500; omega))).trans ?_
    refine (Cert.Hgnn.Chunks.canon_miss 5000 _ _ _ (row 0 r') d (Or.inl (by show 2500 * 0 + r'.val < 5000; omega))).trans ?_
    refine (Cert.Hgnn.Chunks.canon_miss 2500 _ _ _ (row 0 r') d (Or.inl (by show 2500 * 0 + r'.val < 2500; omega))).trans ?_
    refine (Cert.Hgnn.Chunks.canon_hit 0 _ _ _ (row 0 r') r' d rfl).trans ?_
    refine (pay1_apply _ _ _ r' d).trans ?_
    exact step_of x0 es p (row 0 r') r' d _ _ (fun j' => ld_Q0 x0 r' j') (ld_R0 (e := .f32) p r' d)

end Cert.KernelIdeal.Step

end
-- ==== Proof.Invariant.lean ====
/-
  What the output's buffer and the scratch hold after each of the eight grid points, over the extended reals.

  Point k finds the adjacency block of columns 256k … 256k + 255, and (after point 0) the embeddings in the scratch.
  One step adds to the running output the block's contribution ∑ j' A[i, 256k + j'] · hidden (256k + j') d, where the
  hidden block the step forms is the hidden layer at the block's columns (the four row chunks are the whole sum over
  the rows). So by induction on the point the output holds the total of blocks 0 … k, starting from zero at point 0,
  and the last point's leaky makes it the result.
-/
import proofs.«137675_g26250840113511_retrytranche2_1766_21_alg».proof.Proof.Gen.KernelIdeal.Frame
import proofs.«137675_g26250840113511_retrytranche2_1766_21_alg».proof.Proof.Body
import proofs.«137675_g26250840113511_retrytranche2_1766_21_alg».proof.Proof.StepDefs
import proofs.«137675_g26250840113511_retrytranche2_1766_21_alg».proof.Proof.StepValue
import proofs.«137675_g26250840113511_retrytranche2_1766_21_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Step

open Cert.KernelIdeal Cert.KernelIdeal.Gen
open Idealize.ShloMosaic Idealize.ShloMosaic.TcCoe Idealize.ShloMosaic.ValueIdx
open Idealize.SL Idealize.SL.Sem
open Cert.Hgnn (lk row col col_val hidden hidden_chunks contrib total total_zero total_succ resultAt resultAt_eq_total G SA SE)

/-! ## One step over the extended reals, at any index -/

/-- Every row is a row of one of the four chunks. -/
theorem row_surj (r : Fin 10000) : ∃ (c : Fin 4) (r' : Fin 2500), r = row c r' :=
  ⟨⟨r.val / 2500, by have := r.isLt; omega⟩, ⟨r.val % 2500, Nat.mod_lt _ (by decide)⟩,
    Fin.ext (by show r.val = 2500 * (r.val / 2500) + r.val % 2500; omega)⟩

/-- The step's pieces, followed by any earlier stores, read at (r, d): the running output there plus row r of the
    adjacency block against column d of the hidden block. -/
theorem canon_pieces_app (x0 : FVec Ideal S10000x256 .f32) (es : FVec Ideal S10000x128 .bf16) (p : FVec Ideal S10000x128 .f32)
    (L : List (View.Piece (Elt Ideal) S10000x128 .f32)) (r : Fin 10000) (d : Fin 128) :
    View.canon (pieces x0 es p ++ L) (ix2 r d) = stepAt x0 es p r d := by
  obtain ⟨c, r', rfl⟩ := row_surj r
  exact canon_pieces_at x0 es p L c r' d

theorem canon_pieces (x0 : FVec Ideal S10000x256 .f32) (es : FVec Ideal S10000x128 .bf16) (p : FVec Ideal S10000x128 .f32)
    (r : Fin 10000) (d : Fin 128) : View.canon (pieces (F := Ideal) x0 es p) (ix2 r d) = stepAt x0 es p r d := by
  have e := canon_pieces_app x0 es p [] r d
  rwa [List.append_nil] at e

/-- With the adjacency block that of column block k and the scratch holding the embeddings, the step adds column
    block k's contribution: the hidden block's entries are the hidden layer's at the block's columns. -/
theorem stepAt_contrib (A : FVec Ideal SA .f32) (E : FVec Ideal SE .f32) (k : ℕ)
    (x0 : FVec Ideal S10000x256 .f32) (hx : ∀ (r : Fin 10000) (j' : Fin 256), x0 (ix2 r j') = A (ix2 r (col k j')))
    (p : FVec Ideal S10000x128 .f32) (r : Fin 10000) (d : Fin 128) :
    stepAt x0 E p r d = p (ix2 r d) + contrib A E k r d := by
  unfold stepAt contrib
  refine congrArg (p (ix2 r d) + ·) (Finset.sum_congr rfl fun j' _ => ?_)
  rw [hx r j']
  refine congrArg (A (ix2 r (col k j')) * ·) ?_
  unfold hval
  simp only [hx]
  exact hidden_chunks A E (col k j') d

/-! ## The payloads outside the step, over the extended reals -/

theorem pay7_apply (y : S10000x128.Idx) : k0_pay7 (F := Ideal) y = 0 := Ideal.ofBits_zero_f32

theorem pay6_eq (x1 : Vec Ideal S10000x128 .f32) : k0_pay6 (F := Ideal) x1 = x1 := by
  unfold k0_pay6
  simp only [shapeCast_self]
  rfl

theorem pay5_apply (v : Vec Ideal S10000x128 .f32) (y : S10000x128.Idx) : k0_pay5 (F := Ideal) v y = lk (v y) := by
  unfold k0_pay5
  simp only [shapeCast_self]
  rfl

/-! ## The three kinds of point -/

/-- First point: zero plus column block 0's contribution. -/
theorem first_val (A : FVec Ideal SA .f32) (E : FVec Ideal SE .f32)
    (x0 : FVec Ideal S10000x256 .f32) (hx : ∀ (r : Fin 10000) (j' : Fin 256), x0 (ix2 r j') = A (ix2 r (col 0 j')))
    (x1 : Vec Ideal S10000x128 .f32) (hx1 : x1 = E)
    (L : List (View.Piece (Elt Ideal) S10000x128 .f32)) :
    View.canon (pieces (F := Ideal) x0 (k0_pay6 x1) (k0_pay7 (F := Ideal)) ++ L) = fun y => total A E 0 (y 0) (y 1) := by
  funext y
  obtain ⟨r, d, rfl⟩ : ∃ (r : Fin 10000) (d : Fin 128), y = ix2 r d := ⟨y 0, y 1, eq_ix2 y⟩
  rw [canon_pieces_app, pay6_eq, hx1, stepAt_contrib A E 0 x0 hx, pay7_apply]
  exact total_zero A E r d

/-- Middle point k = n + 1: the running total of blocks 0 … n plus block n + 1's contribution. -/
theorem middle_val (A : FVec Ideal SA .f32) (E : FVec Ideal SE .f32) (n : ℕ)
    (x0 : FVec Ideal S10000x256 .f32) (hx : ∀ (r : Fin 10000) (j' : Fin 256), x0 (ix2 r j') = A (ix2 r (col (n + 1) j')))
    (es : Vec Ideal S10000x128 .bf16) (hes : es = E)
    (p : Vec Ideal S10000x128 .f32) (hp : p = fun y => total A E n (y 0) (y 1)) :
    View.canon (pieces (F := Ideal) x0 es p) = fun y => total A E (n + 1) (y 0) (y 1) := by
  funext y
  obtain ⟨r, d, rfl⟩ : ∃ (r : Fin 10000) (d : Fin 128), y = ix2 r d := ⟨y 0, y 1, eq_ix2 y⟩
  rw [canon_pieces, hes, stepAt_contrib A E (n + 1) x0 hx, hp]
  exact total_succ A E n r d

/-- Last point: leaky of the running total of all eight blocks, which is the result. -/
theorem last_val (A : FVec Ideal SA .f32) (E : FVec Ideal SE .f32)
    (x0 : FVec Ideal S10000x256 .f32) (hx : ∀ (r : Fin 10000) (j' : Fin 256), x0 (ix2 r j') = A (ix2 r (col 7 j')))
    (es : Vec Ideal S10000x128 .bf16) (hes : es = E)
    (p : Vec Ideal S10000x128 .f32) (hp : p = fun y => total A E 6 (y 0) (y 1)) :
    k0_pay5 (F := Ideal) (View.canon (pieces (F := Ideal) x0 es p)) = G A E := by
  funext y
  rw [pay5_apply, middle_val A E 6 x0 hx es hes p hp]
  unfold G
  exact (resultAt_eq_total A E (y 0) (y 1)).symm

/-! ## The blocks the points find -/

variable (m : (ℓ : Loc nD τ sig) → Buf (Elt Ideal) ℓ)

/-- The adjacency matrix and the embeddings as launched, and the windows' blocks at a point, at their literal types. -/
abbrev Aarr (c : Dev nD) : FVec Ideal SA .f32 := m ((c : Thread nD τ).loc main_arg0)
abbrev Earr (c : Dev nD) : FVec Ideal SE .f32 := m ((c : Thread nD τ).loc main_arg1)
abbrev ablk (c : Dev nD) (t : Fin cfg0.N) : Vec Ideal S10000x256 .f32 := iblk m c 0 t
abbrev eblk (c : Dev nD) (t : Fin cfg0.N) : Vec Ideal S10000x128 .f32 := iblk m c 1 t

/-- Window 0's block at point t is all rows and column block t; window 1's is the whole array. -/
theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = 0 :=
  (by decide +kernel : ∀ t : Fin grid0.N, win0_1.index t 0 = 0 ∧ win0_1.index t 1 = 0)

theorem ablk_at (c : Dev nD) (t : Fin cfg0.N) (r : Fin 10000) (j' : Fin 256) :
    ablk m c t (ix2 r j') = Aarr m c (ix2 r (col t.val j')) := by
  have hi := index0 t
  have ht : t.val < 8 := lt_of_lt_of_eq t.isLt N_0
  unfold ablk iblk
  rw [View.read_apply]
  show V m c main_arg0 _ = V m c main_arg0 (ix2 r (col t.val j'))
  refine congrArg (V m c main_arg0) (funext fun a => Fin.ext ?_)
  match a with
  | ⟨0, _⟩ => show win0_0.index t 0 * 10000 + 1 * r.val = r.val; rw [hi.1]; omega
  | ⟨1, _⟩ => show win0_0.index t 1 * 256 + 1 * j'.val = (col t.val j').val; rw [hi.2, col_val _ ht]; omega

theorem eblk_eq (c : Dev nD) (t : Fin cfg0.N) : eblk m c t = Earr m c := by
  have hi := index1 t
  funext y
  unfold eblk iblk
  rw [View.read_apply]
  show V m c main_arg1 _ = V m c main_arg1 y
  refine congrArg (V m c main_arg1) (funext fun a => Fin.ext ?_)
  match a with
  | ⟨0, _⟩ => show win0_1.index t 0 * 10000 + 1 * (y 0).val = (y 0).val; rw [hi.1]; omega
  | ⟨1, _⟩ => show win0_1.index t 1 * 128 + 1 * (y 1).val = (y 1).val; rw [hi.2]; omega

/-! ## After a point, by the kind of point -/

/-- First point: the scratch now holds the embeddings. -/
theorem scratch_first (c : Dev nD) (t : Fin cfg0.N) (h0 : t.val % 8 = 0) (h1 : ¬t.val % 8 = 7) :
    (outsAt0 m c t.val t.isLt).2 = (Earr m c : Vec Ideal S10000x128 .bf16) := by
  rw [outsAt0_A m c t h0 h1]
  dsimp only
  rw [sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)]
  exact (pay6_eq (eblk m c t)).trans (eblk_eq m c t)

/-- First point: the output's buffer holds column block 0's contribution. -/
theorem out_first (c : Dev nD) (t : Fin cfg0.N) (h0 : t.val % 8 = 0) (h1 : ¬t.val % 8 = 7) (ht : t.val = 0) :
    (outsAt0 m c t.val t.isLt).1 = fun y => total (Aarr m c) (Earr m c) 0 (y 0) (y 1) := by
  rw [outsAt0_A m c t h0 h1]
  dsimp only
  rw [out_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)]
  have hx : ∀ (r : Fin 10000) (j' : Fin 256), ablk m c t (ix2 r j') = Aarr m c (ix2 r (col 0 j')) := fun r j' => by
    rw [ablk_at m c t r j', ht]
  exact first_val (Aarr m c) (Earr m c) (ablk m c t) hx (eblk m c t) (eblk_eq m c t) _

/-- Middle point: the scratch is as the point before left it. -/
theorem scratch_middle (c : Dev nD) (t : Fin cfg0.N) (h0 : ¬t.val % 8 = 0) (h1 : ¬t.val % 8 = 7)
    (hs : (outsAt0 m c (t.val - 1) (Nat.lt_of_le_of_lt (Nat.sub_le _ _) t.isLt)).2 = (Earr m c : Vec Ideal S10000x128 .bf16)) :
    (outsAt0 m c t.val t.isLt).2 = (Earr m c : Vec Ideal S10000x128 .bf16) := by
  rw [outsAt0_B m c t h0 h1]
  dsimp only
  unfold sout0_B_0
  exact hs

/-- Middle point n + 1: the running total grows by column block n + 1's contribution. -/
theorem out_middle (c : Dev nD) (t : Fin cfg0.N) (h0 : ¬t.val % 8 = 0) (h1 : ¬t.val % 8 = 7) (n : ℕ) (ht : t.val = n + 1)
    (hs : (outsAt0 m c (t.val - 1) (Nat.lt_of_le_of_lt (Nat.sub_le _ _) t.isLt)).2 = (Earr m c : Vec Ideal S10000x128 .bf16))
    (ho : (outsAt0 m c (t.val - 1) (Nat.lt_of_le_of_lt (Nat.sub_le _ _) t.isLt)).1 = fun y => total (Aarr m c) (Earr m c) n (y 0) (y 1)) :
    (outsAt0 m c t.val t.isLt).1 = fun y => total (Aarr m c) (Earr m c) (n + 1) (y 0) (y 1) := by
  rw [outsAt0_B m c t h0 h1]
  dsimp only
  rw [out_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2]
  have hx : ∀ (r : Fin 10000) (j' : Fin 256), ablk m c t (ix2 r j') = Aarr m c (ix2 r (col (n + 1) j')) := fun r j' => by
    rw [ablk_at m c t r j', ht]
  exact middle_val (Aarr m c) (Earr m c) n (ablk m c t) hx _ hs _ ho

/-- Last point: the scratch is as the point before left it. -/
theorem scratch_last (c : Dev nD) (t : Fin cfg0.N) (h0 : ¬t.val % 8 = 0) (h1 : t.val % 8 = 7)
    (hs : (outsAt0 m c (t.val - 1) (Nat.lt_of_le_of_lt (Nat.sub_le _ _) t.isLt)).2 = (Earr m c : Vec Ideal S10000x128 .bf16)) :
    (outsAt0 m c t.val t.isLt).2 = (Earr m c : Vec Ideal S10000x128 .bf16) := by
  rw [outsAt0_C m c t h0 h1]
  dsimp only
  unfold sout0_C_0
  exact hs

/-- Last point: the output's buffer holds the result. -/
theorem out_last (c : Dev nD) (t : Fin cfg0.N) (h0 : ¬t.val % 8 = 0) (h1 : t.val % 8 = 7) (ht : t.val = 7)
    (hs : (outsAt0 m c (t.val - 1) (Nat.lt_of_le_of_lt (Nat.sub_le _ _) t.isLt)).2 = (Earr m c : Vec Ideal S10000x128 .bf16))
    (ho : (outsAt0 m c (t.val - 1) (Nat.lt_of_le_of_lt (Nat.sub_le _ _) t.isLt)).1 = fun y => total (Aarr m c) (Earr m c) 6 (y 0) (y 1)) :
    (outsAt0 m c t.val t.isLt).1 = G (Aarr m c) (Earr m c) := by
  rw [outsAt0_C m c t h0 h1]
  dsimp only
  rw [out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2]
  have hx : ∀ (r : Fin 10000) (j' : Fin 256), ablk m c t (ix2 r j') = Aarr m c (ix2 r (col 7 j')) := fun r j' => by
    rw [ablk_at m c t r j', ht]
  exact last_val (Aarr m c) (Earr m c) (ablk m c t) hx _ hs _ ho

/-! ## After each point -/

/-- After point n the scratch holds the embeddings, and the output's buffer holds the running total of column blocks
    0 … n; after the last point, leaky of the whole total: the result. -/
def Good (c : Dev nD) (n : ℕ) (hn : n < cfg0.N) : Prop :=
  (outsAt0 m c n hn).2 = (Earr m c : Vec Ideal S10000x128 .bf16)
  ∧ (n < 7 → (outsAt0 m c n hn).1 = fun y => total (Aarr m c) (Earr m c) n (y 0) (y 1))
  ∧ (n = 7 → (outsAt0 m c n hn).1 = G (Aarr m c) (Earr m c))

theorem good (c : Dev nD) : ∀ (n k : ℕ) (hk : k < cfg0.N), k = n → Good m c k hk := by
  intro n
  induction n with
  | zero =>
    intro k hk hk0
    subst hk0
    have h0 : (⟨0, hk⟩ : Fin cfg0.N).val % 8 = 0 := rfl
    have h1 : ¬(⟨0, hk⟩ : Fin cfg0.N).val % 8 = 7 := by show ¬(0 % 8 = 7); decide
    exact ⟨scratch_first m c ⟨0, hk⟩ h0 h1, fun _ => out_first m c ⟨0, hk⟩ h0 h1 rfl, fun h => absurd h (by decide)⟩
  | succ n ih =>
    intro k hk hkn
    subst hkn
    have hN : n + 1 < 8 := lt_of_lt_of_eq hk N_0
    have h0 : ¬(⟨n + 1, hk⟩ : Fin cfg0.N).val % 8 = 0 := by show ¬(n + 1) % 8 = 0; omega
    have hprev := ih n (Nat.lt_of_succ_lt hk) rfl
    by_cases h1 : (⟨n + 1, hk⟩ : Fin cfg0.N).val % 8 = 7
    · have hn6 : n = 6 := by have h1' : (n + 1) % 8 = 7 := h1; omega
      subst hn6
      exact ⟨scratch_last m c ⟨6 + 1, hk⟩ h0 h1 hprev.1, fun h => absurd h (by decide),
        fun _ => out_last m c ⟨6 + 1, hk⟩ h0 h1 rfl hprev.1 (hprev.2.1 (by decide))⟩
    · have hlt : n < 7 := by have h1' : ¬(n + 1) % 8 = 7 := h1; omega
      exact ⟨scratch_middle m c ⟨n + 1, hk⟩ h0 h1 hprev.1,
        fun _ => out_middle m c ⟨n + 1, hk⟩ h0 h1 n rfl hprev.1 (hprev.2.1 hlt),
        fun h => absurd h (by have h1' : ¬(n + 1) % 8 = 7 := h1; omega)⟩

/-- After the last point the output's buffer holds the result. -/
theorem last_out (c : Dev nD) (h7 : 7 < cfg0.N) :
    (outsAt0 m c 7 h7).1 = G (m ((c : Thread nD τ).loc main_arg0)) (m ((c : Thread nD τ).loc main_arg1)) :=
  (good m c 7 7 h7 rfl).2.2 rfl

end Cert.KernelIdeal.Step

end
-- ==== Proof.lean ====
/-
  The kernel computes out = lk (A · lk (Aᵀ · E)) for A : [10000, 2048], E : [10000, 128] and lk the leaky ReLU of
  slope 1/2, streaming A in eight blocks of 256 columns: for block k it forms the 256 rows of the hidden layer that
  belong to the block, lk (A_kᵀ · E) (the 10000 rows summed as four chunks of 2500), and adds A_k times them to an
  output kept zero-initialised across the eight grid points; the last point applies lk. The reference forms the whole
  hidden layer lk (Aᵀ · E) and then lk (A · hidden).

  Over the extended reals a change of float format is the identity and both programs' sums are finite sums in a
  commutative monoid, so the two are one function of A and E (Proof/Spec.lean: `Cert.Hgnn.G`): the hidden layer's
  rows do not depend on the blocking, the row sum is the sum of its four chunks, and the column sum is the sum of the
  eight blocks' contributions. No entry has to be finite for this; the precondition is not used.

  Proof/RefSide.lean runs the reference and reads its result as G; Proof/Body.lean, Proof/StepValue.lean and
  Proof/Invariant.lean give what the kernel's output buffer holds after each grid point; Proof/KernelRun.lean carries
  that to the result array. The kernel never rewrote an operation for the ideal reading, so the idealization claim
  is the empty conjunction.
-/
import proofs.«137675_g26250840113511_retrytranche2_1766_21_alg».proof.Defs
import proofs.«137675_g26250840113511_retrytranche2_1766_21_alg».proof.Proof.Gen.Kernel
import proofs.«137675_g26250840113511_retrytranche2_1766_21_alg».proof.Proof.Gen.Kernel.Skeleton
import proofs.«137675_g26250840113511_retrytranche2_1766_21_alg».proof.Proof.Gen.Kernel.Launch
import proofs.«137675_g26250840113511_retrytranche2_1766_21_alg».proof.Proof.Gen.Kernel.Points
import proofs.«137675_g26250840113511_retrytranche2_1766_21_alg».proof.Proof.Gen.Kernel.Frame
import proofs.«137675_g26250840113511_retrytranche2_1766_21_alg».proof.Proof.Gen.KernelIdeal
import proofs.«137675_g26250840113511_retrytranche2_1766_21_alg».proof.Proof.Gen.KernelIdeal.Skeleton
import proofs.«137675_g26250840113511_retrytranche2_1766_21_alg».proof.Proof.Gen.KernelIdeal.Launch
import proofs.«137675_g26250840113511_retrytranche2_1766_21_alg».proof.Proof.Gen.KernelIdeal.Points
import proofs.«137675_g26250840113511_retrytranche2_1766_21_alg».proof.Proof.Gen.KernelIdeal.Frame
import proofs.«137675_g26250840113511_retrytranche2_1766_21_alg».proof.Proof.Gen.ReferenceIdeal
import proofs.«137675_g26250840113511_retrytranche2_1766_21_alg».proof.Proof.Gen.Pre_finite_inputs
import proofs.«137675_g26250840113511_retrytranche2_1766_21_alg».proof.Proof.RefSide
import proofs.«137675_g26250840113511_retrytranche2_1766_21_alg».proof.Proof.KernelRun
import proofs.«137675_g26250840113511_retrytranche2_1766_21_alg».proof.Proof.Invariant
import Idealize.ShloMosaic.Adequacy
import Idealize.ShloMosaic.Init

noncomputable section

namespace Cert.Proof

open Idealize.ShloMosaic Idealize.ShloMosaic.TcCoe Idealize.SL.Sem

/-- The kernel as printed always finishes and leaves its two arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference always finishes with its arguments unchanged: its run, the result forgotten. -/
theorem frame_referenceIdeal : Cert.frame_ReferenceIdeal := fun m ρ _ =>
  (θ_run Cert.ReferenceIdeal.defs _ _).mono (fun _ h c => (h c).2) (Cert.ReferenceIdeal.RefSide.run m ρ)

/-- No operation was rewritten for the ideal reading. -/
theorem preserves : Cert.preserves_Kernel_KernelIdeal := trivial

/-- From arguments that agree, both programs end with `G` of them in their result arrays. -/
theorem algebraic : Cert.algebraic_KernelIdeal_ReferenceIdeal := by
  intro m ρ m' ρ' _ hagree
  refine ⟨fun c => Cert.Hgnn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KSide.run_of (fun m c h7 => Cert.KernelIdeal.Step.last_out m c h7) m ρ, ?_⟩
  refine (θ_run Cert.ReferenceIdeal.defs _ _).mono (fun _ h c => ⟨(h c).1.trans ?_, (h c).2⟩)
    (Cert.ReferenceIdeal.RefSide.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
